-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S1000000x2 : Shape := ⟨2, ![1000000, 2]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S1000000x2 : S_.BroadcastsInDim S1000000x2 (![] : Fin 0 → Fin S1000000x2.rank)
  reducesTo_S1000000x2_S_d0_1 : S1000000x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x2048x2048 .f32) (main_arg1 : FVec F S8x2048x2048 .f32) (main_arg2 : IVec S1000000x2 32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_c_2 : IVec S_ 32 := constantI S_ 32 0#32
  let main_v9 : IVec S1000000x2 32 := broadcastInDim S1000000x2 ![] bcast_S_S1000000x2 main_c_2
  let main_v10 : IVec S1000000x2 1 := cmpi .sge main_arg2 main_v9
  let main_c_3 : IVec S_ 1 := constantI S_ 1 1#1
  let main_v11 : IVec S_ 1 := (fun x v => Host.reduce IntOp.andi x v reducesTo_S1000000x2_S_d0_1 h_S_) main_v10 main_c_3
  let main_v12 : IVec S_ 1 := andi main_v8 main_v11
  let main_c_4 : IVec S_ 32 := constantI S_ 32 2048#32
  let main_v13 : IVec S1000000x2 32 := broadcastInDim S1000000x2 ![] bcast_S_S1000000x2 main_c_4
  let main_v14 : IVec S1000000x2 1 := cmpi .slt main_arg2 main_v13
  let main_c_5 : IVec S_ 1 := constantI S_ 1 1#1
  let main_v15 : IVec S_ 1 := (fun x v => Host.reduce IntOp.andi x v reducesTo_S1000000x2_S_d0_1 h_S_) main_v14 main_c_5
  fn_part1 (F := F) main_v12 main_v15
-- ==== Kernel.lean ====
abbrev S8x2048x2048 : Shape := ⟨3, ![8, 2048, 2048]⟩
abbrev S1000000x2 : Shape := ⟨2, ![1000000, 2]⟩
abbrev S1000000x1 : Shape := ⟨2, ![1000000, 1]⟩
abbrev S1000000 : Shape := ⟨1, ![1000000]⟩
abbrev S_ : Shape := ⟨0, ![]⟩
abbrev S4194304 : Shape := ⟨1, ![4194304]⟩
abbrev S2048x2048 : Shape := ⟨2, ![2048, 2048]⟩
abbrev S2x1x128 : Shape := ⟨3, ![2, 1, 128]⟩
abbrev S8x128x512 : Shape := ⟨3, ![8, 128, 512]⟩
abbrev S128x512 : Shape := ⟨2, ![128, 512]⟩
abbrev S1x1x128 : Shape := ⟨3, ![1, 1, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 38
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S1000000x2, .i32⟩
  | .hbm, ⟨3, _⟩ => ⟨S1000000x1, .i32⟩
  | .hbm, ⟨4, _⟩ => ⟨S1000000, .i32⟩
  | .hbm, ⟨5, _⟩ => ⟨S1000000x1, .i32⟩
  | .hbm, ⟨6, _⟩ => ⟨S1000000, .i32⟩
  | .hbm, ⟨7, _⟩ => ⟨S_, .i32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S_, .i32⟩
  | .hbm, ⟨12, _⟩ => ⟨S4194304, .i32⟩
  | .hbm, ⟨13, _⟩ => ⟨S_, .i32⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S_, .i32⟩
  | .hbm, ⟨26, _⟩ => ⟨S1000000, .i32⟩
  | .hbm, ⟨27, _⟩ => ⟨S4194304, .i32⟩
  | .hbm, ⟨28, _⟩ => ⟨S4194304, .f32⟩
  | .hbm, ⟨29, _⟩ => ⟨S2048x2048, .f32⟩
  | .hbm, ⟨30, _⟩ => ⟨S2x1x128, .f32⟩
  | .hbm, ⟨31, _⟩ => ⟨S1x1x1, .f32⟩
  | .hbm, ⟨32, _⟩ => ⟨S_, .f32⟩
  | .hbm, ⟨33, _⟩ => ⟨S1x1x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S8x128x512, .f32⟩
  | .local _ .vmem, ⟨1, _⟩ => ⟨S8x128x512, .f32⟩
  | .local _ .vmem, ⟨2, _⟩ => ⟨S8x128x512, .f32⟩
  | .local _ .vmem, ⟨3, _⟩ => ⟨S8x128x512, .f32⟩
  | .local _ .vmem, ⟨4, _⟩ => ⟨S128x512, .f32⟩
  | .local _ .vmem, ⟨5, _⟩ => ⟨S128x512, .f32⟩
  | .local _ .vmem, ⟨6, _⟩ => ⟨S1x1x128, .f32⟩
  | .local _ .vmem, ⟨7, _⟩ => ⟨S1x1x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  bcast_S_S4194304 : S_.BroadcastsInDim S4194304 (![] : Fin 0 → Fin S4194304.rank)
  bcast_S1000000_S1000000x1_0 : S1000000.BroadcastsInDim S1000000x1 (![0] : Fin 1 → Fin S1000000x1.rank)
  shapeCasts_S4194304_S2048x2048 : S4194304.ShapeCasts S2048x2048
  inb_S1x1x128_S1x1x128_0_0_0 : ∀ a, (![0, 0, 0] : Fin 3 → Nat) a + S1x1x128.size a ≤ S1x1x128.size a
  h_S1x1x128 : 0 < S1x1x128.numel
  inb_S8x128x512_S8x128x512_0_0_0 : ∀ a, (![0, 0, 0] : Fin 3 → Nat) a + S8x128x512.size a ≤ S8x128x512.size a
  h_S8x128x512 : 0 < S8x128x512.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  reduces_S8x128x512_S128x512 : S8x128x512.Reduces [0] S128x512
  reduces_S128x512_S128 : S128x512.Reduces [1] S128
  shapeCasts_S128_S128x1 : S128.ShapeCasts S128x1
  reduces_S128x1_S1 : S128x1.Reduces [0] S1
  shapeCasts_S1_S1x1 : S1.ShapeCasts S1x1
  shapeCasts_S1x1x128_S1x1x128 : S1x1x128.ShapeCasts S1x1x128
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S2x1x128_S1x1x1_0_0_0 : S2x1x128.Slices ![0, 0, 0] S1x1x1
  shapeCasts_S1x1x1_S_ : S1x1x1.ShapeCasts S_
  slices_S2x1x128_S1x1x1_1_0_0 : S2x1x128.Slices ![1, 0, 0] S1x1x1
  scatter_S4194304_S1000000x1_S1000000_n_0_0_1_wf : ScatterDims.WF S4194304 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S8x2048x2048.size a
  hwx0_0 : ∀ i : grid0.Coords, EltTy.bits .f32 = 32 ∨ (Rect.block (s := S8x2048x2048) S8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S8x2048x2048.size a
  hwx0_1 : ∀ i : grid0.Coords, EltTy.bits .f32 = 32 ∨ (Rect.block (s := S8x2048x2048) S8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S2048x2048.size a
  hwx0_2 : ∀ i : grid0.Coords, EltTy.bits .f32 = 32 ∨ (Rect.block (s := S2048x2048) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

def scatter_S4194304_S1000000x1_S1000000_n_0_0_1 : ScatterDims S4194304 S1000000x1 S1000000 where
  updateWindowDims := []
  insertedWindowDims := [0]
  scatterDimsToOperandDims := [0]
  indexVectorDim := 1
  wf := scatter_S4194304_S1000000x1_S1000000_n_0_0_1_wf

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S1000000x2 : Shape := ⟨2, ![1000000, 2]⟩
abbrev S1000000x1 : Shape := ⟨2, ![1000000, 1]⟩
abbrev S1000000 : Shape := ⟨1, ![1000000]⟩
abbrev S_ : Shape := ⟨0, ![]⟩
abbrev S8x1000000 : Shape := ⟨2, ![8, 1000000]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S1000000x2, .i32⟩
  | .hbm, ⟨3, _⟩ => ⟨S1000000x1, .i32⟩
  | .hbm, ⟨4, _⟩ => ⟨S1000000, .i32⟩
  | .hbm, ⟨5, _⟩ => ⟨S1000000x1, .i32⟩
  | .hbm, ⟨6, _⟩ => ⟨S1000000, .i32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x1, .i32⟩
  | .hbm, ⟨23, _⟩ => ⟨S1000000x2, .i32⟩
  | .hbm, ⟨24, _⟩ => ⟨S8x1000000, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x1, .i32⟩
  | .hbm, ⟨41, _⟩ => ⟨S1000000x2, .i32⟩
  | .hbm, ⟨42, _⟩ => ⟨S8x1000000, .f32⟩
  | .hbm, ⟨43, _⟩ => ⟨S8x1000000, .f32⟩
  | .hbm, ⟨44, _⟩ => ⟨S_, .f32⟩
  | .hbm, ⟨45, _⟩ => ⟨S8x1000000, .f32⟩
  | .hbm, ⟨46, _⟩ => ⟨S8x1000000, .f32⟩
  | .hbm, ⟨47, _⟩ => ⟨S8x1000000, .f32⟩
  | .hbm, ⟨48, _⟩ => ⟨S8x1000000, .f32⟩
  | .hbm, ⟨49, _⟩ => ⟨S_, .f32⟩
  | .hbm, ⟨50, _⟩ => ⟨S8x1000000, .f32⟩
  | .hbm, ⟨51, _⟩ => ⟨S8x1000000, .f32⟩
  | .hbm, ⟨52, _⟩ => ⟨S8x1000000, .f32⟩
  | .hbm, ⟨53, _⟩ => ⟨S_, .f32⟩
  | .hbm, ⟨54, _⟩ => ⟨S8x1000000, .f32⟩
  | .hbm, ⟨55, _⟩ => ⟨S8x1000000, .f32⟩
  | .hbm, ⟨56, _⟩ => ⟨S8x1000000, .f32⟩
  | .hbm, ⟨57, _⟩ => ⟨S8x1000000, .f32⟩
  | .hbm, ⟨58, _⟩ => ⟨S8x1000000, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S_S8x1000000 : S_.BroadcastsInDim S8x1000000 (![] : Fin 0 → Fin S8x1000000.rank)
  reducesTo_S8x1000000_S_d0_1 : S8x1000000.ReducesTo [0, 1] S_
  h_S_ : 0 < S_.numel
  gather_S8x2048x2048_S1000000x2_S8x1000000_0_12_n_n_12_1_811_wf : GatherDims.WF S8x2048x2048 S1000000x2 S8x1000000 [0] [1, 2] [] [1, 2] [] 1 ![8, 1, 1]

variable [Facts₀]

def gather_S8x2048x2048_S1000000x2_S8x1000000_0_12_n_n_12_1_811 : GatherDims S8x2048x2048 S1000000x2 S8x1000000 where
  offsetDims := [0]
  collapsedSliceDims := [1, 2]
  operandBatchingDims := []
  startIndicesBatchingDims := []
  startIndexMap := [1, 2]
  indexVectorDim := 1
  sliceSizes := ![8, 1, 1]
  wf := gather_S8x2048x2048_S1000000x2_S8x1000000_0_12_n_n_12_1_811_wf

class Facts : Prop extends Facts₀ where

variable [Facts]
-- ==== Proof.Loss.lean ====
/-
  The quantity both programs compute: a binary cross-entropy, clamped at -100 as in torch, summed over a
  list of matched cells (row, column) of two [8, 2048, 2048] arrays and over the batch axis, divided by the
  number of matches.

  The reference walks the list: match k contributes the loss at cell (row k, col k), once per batch entry.
  The kernel walks the grid: cell (r, c) contributes its loss times the number of matches that name it.
  The two totals are one sum, regrouped by the cell each match names (`matchedSum_eq_weightedSum`): on the
  extended reals a sum may be regrouped freely (addition is commutative and associative), and adding a value
  n times is multiplying it by the natural number n, for every extended real including the infinities.
-/
import Idealize.ShloMosaic.PureOps.Ideal
import Idealize.ShloMosaic.Lib.ValueIdx

noncomputable section

namespace Cert.Matched

open Idealize.ShloMosaic Idealize.ShloMosaic.ValueIdx
open scoped BigOperators

/-- The two float arrays' shape, the match list's, and a scalar's. -/
abbrev Arr : Shape := ⟨3, ![8, 2048, 2048]⟩
abbrev Pairs : Shape := ⟨2, ![1000000, 2]⟩
abbrev Scalar0 : Shape := ⟨0, ![]⟩

/-- The loss of one entry: -(g · max(log p, -100) + (1 - g) · max(log(1 + (-p)), -100)), the constants -100 and 1
    kept as their f32 words (both programs carry the same words, so they are never evaluated). -/
def loss (p g : EReal) : EReal :=
  -(g * max (Ideal.log p) (Ideal.ofBits .f32 0xC2C80000#32)
    + (Ideal.ofBits .f32 0x3F800000#32 - g) * max (Ideal.log1p (-p)) (Ideal.ofBits .f32 0xC2C80000#32))

/-- Every entry of the match list is an index into an axis of extent 2048. -/
def InRange (a2 : IVec Pairs 32) : Prop := ∀ i : Pairs.Idx, (a2 i).toNat < 2048

/-- The row and the column match k names (total functions: the remainder is the identity on a list in range). -/
def rowOf (a2 : IVec Pairs 32) (k : Fin 1000000) : Fin 2048 :=
  ⟨(a2 (ix2 k 0)).toNat % 2048, Nat.mod_lt _ (by norm_num)⟩
def colOf (a2 : IVec Pairs 32) (k : Fin 1000000) : Fin 2048 :=
  ⟨(a2 (ix2 k 1)).toNat % 2048, Nat.mod_lt _ (by norm_num)⟩

/-- The loss at cell (r, c), summed over the batch axis. -/
def cell (a0 a1 : FVec Ideal Arr .f32) (r c : Fin 2048) : EReal :=
  ∑ b : Fin 8, loss (a0 (ix3 b r c)) (a1 (ix3 b r c))

/-- How many matches name cell (r, c). -/
def mult (a2 : IVec Pairs 32) (r c : Fin 2048) : ℕ :=
  (Finset.univ.filter fun k : Fin 1000000 => rowOf a2 k = r ∧ colOf a2 k = c).card

/-- The total as the reference forms it: over the matches. -/
def matchedSum (a0 a1 : FVec Ideal Arr .f32) (a2 : IVec Pairs 32) : EReal :=
  ∑ k : Fin 1000000, cell a0 a1 (rowOf a2 k) (colOf a2 k)

/-- The total as the kernel forms it: over the cells, each weighted by its multiplicity. -/
def weightedSum (a0 a1 : FVec Ideal Arr .f32) (a2 : IVec Pairs 32) : EReal :=
  ∑ r : Fin 2048, ∑ c : Fin 2048, cell a0 a1 r c * ((mult a2 r c : ℕ) : EReal)

/-- The result: the total over the number of matches, 10^6 as its f32 word. -/
def mean (S : EReal) : FVec Ideal Scalar0 .f32 := fun _ => Ideal.div S (Ideal.ofBits .f32 0x49742400#32)

/-- Adding an extended real n times is multiplying it by n. -/
theorem nsmul_eq_mul_natCast (n : ℕ) (x : EReal) : n • x = x * ((n : ℕ) : EReal) := by
  rw [EReal.nsmul_eq_mul, mul_comm]

/-- The sum over the matches is the sum over the cells weighted by multiplicity. -/
theorem matchedSum_eq_weightedSum (a0 a1 : FVec Ideal Arr .f32) (a2 : IVec Pairs 32) :
    matchedSum a0 a1 a2 = weightedSum a0 a1 a2 := by
  unfold matchedSum weightedSum
  -- group the matches by the cell (row, column) they name
  rw [← Finset.sum_fiberwise' Finset.univ (fun k : Fin 1000000 => (rowOf a2 k, colOf a2 k))
    (fun p : Fin 2048 × Fin 2048 => cell a0 a1 p.1 p.2), Fintype.sum_prod_type]
  refine Finset.sum_congr rfl fun r _ => Finset.sum_congr rfl fun c _ => ?_
  -- a fibre contributes its cell's loss once per match in it
  rw [Finset.sum_const, nsmul_eq_mul_natCast]
  simp only [mult, Prod.mk.injEq]

end Cert.Matched

end
-- ==== Proof.IndexRange.lean ====
/-
  What the precondition says of the match list: every entry is at least 0 and below 2048 as a signed word,
  so its unsigned value is below 2048.
-/
import proofs.«400624_j80985903334130_2_alg».proof.Pre_finite_inputs
import proofs.«400624_j80985903334130_2_alg».proof.Proof.Loss
import Idealize.ShloMosaic.Lib.StableHlo.Predicate
import Idealize.ShloMosaic.Lib.ReduceAll

noncomputable section

namespace Cert.Matched

open Idealize.ShloMosaic Idealize.ShloMosaic.ValueIdx

/-- A 32-bit word whose signed value is at least 0 and below 2048 has unsigned value below 2048:
    a nonnegative signed value is the unsigned value itself. -/
private theorem toNat_lt_of_signed_range (x : BitVec 32) (h0 : (0#32).toInt ≤ x.toInt) (h1 : x.toInt < (2048#32).toInt) :
    x.toNat < 2048 := by
  have e0 : (0#32).toInt = 0 := by decide
  have e1 : (2048#32).toInt = 2048 := by decide
  rw [e0] at h0
  rw [e1] at h1
  rw [BitVec.toInt_eq_toNat_cond] at h0 h1
  have hx : x.toNat < 2 ^ 32 := x.isLt
  split at h0 <;> omega

/-- The precondition's last two conjuncts, decoded: the match list is in range. -/
theorem inRange_of_pre [Cert.Pre_finite_inputs.Facts]
    (a0 a1 : FVec Ideal Cert.Pre_finite_inputs.S8x2048x2048 .f32) (a2 : IVec Cert.Pre_finite_inputs.S1000000x2 32)
    (h : Cert.Pre_finite_inputs.fn (F := Ideal) a0 a1 a2 = fun _ => 1#1) : InRange a2 := by
  have h0 := congrFun h ValueIdx.ix0
  dsimp only [Cert.Pre_finite_inputs.fn, Cert.Pre_finite_inputs.fn_part1, andi] at h0
  -- the conjunction is 1, so each conjunct is
  obtain ⟨h12, h15⟩ := IntOp.andi_eq_one.1 h0
  obtain ⟨_, h11⟩ := IntOp.andi_eq_one.1 h12
  intro i
  -- the index set of a scalar has one element
  haveI : Subsingleton Cert.Pre_finite_inputs.S_.Idx := ⟨fun _ _ => funext fun d => d.elim0⟩
  -- a conjunction over every index that is 1 is 1 at each index
  have hge := Host.reduce_andi_all _ _ _ _ _ h11 i
  have hlt := Host.reduce_andi_all _ _ _ _ _ h15 i
  -- at index i the two compares read the entry against the constants 0 and 2048
  dsimp only [cmpi, broadcastInDim, constantI] at hge hlt
  rw [IntOp.cmpi_sge] at hge
  rw [IntOp.cmpi_slt] at hlt
  exact toNat_lt_of_signed_range _ hge hlt

end Cert.Matched

end
-- ==== Proof.RefMatched.lean ====
/-
  The reference's result is the mean of the sum over the matches.
-/
import proofs.«400624_j80985903334130_2_alg».proof.Proof.Gen.ReferenceIdeal.Read
import proofs.«400624_j80985903334130_2_alg».proof.Proof.Loss

noncomputable section

namespace Cert.ReferenceIdeal.Matched

open Cert.ReferenceIdeal Cert.ReferenceIdeal.Gen Idealize.ShloMosaic Idealize.ShloMosaic.TcCoe Idealize.SL.Sem
open Idealize.ShloMosaic.ValueIdx Cert.Matched

/-- The gather's dimension numbers: the batch axis is the result's offset axis; the row and column axes are collapsed and
    take their starts from the two components of a match. -/
private abbrev gd := gather_S8x2048x2048_S1000000x2_S8x1000000_0_12_n_n_12_1_811

/-- The gather read at (b, k): when the two components of match k, read as naturals, are the row r and the column c
    (both below 2048, so the signed reading is the natural one and the clamp into [0, 2047] is the identity), the
    element is the operand's at (b, r, c). -/
theorem gather_apply {α : Type} (x : S8x2048x2048.Idx → α) (idx : IVec S1000000x2 32) (b : Fin 8) (k : Fin 1000000)
    (r c : Fin 2048) (h0 : (idx (ix2 k 0)).toNat = r.val) (h1 : (idx (ix2 k 1)).toNat = c.val) :
    Host.gather gather_S8x2048x2048_S1000000x2_S8x1000000_0_12_n_n_12_1_811 x idx (ix2 b k) = x (ix3 b r c) := by
  have hr := r.isLt
  have hc := c.isLt
  unfold Host.gather
  congr 1
  funext a
  refine Fin.ext ?_
  match a with
  | ⟨0, _⟩ =>
    -- the batch axis: no start, no batching, the offset coordinate is b
    show gd.start (ix2 b k) idx 0 + gd.batchCoord (ix2 b k) 0 + gd.offCoord (ix2 b k) 0 = b.val
    have hs : gd.start (ix2 b k) idx 0 = 0 := by
      unfold GatherDims.start; exact dif_neg (by decide)
    have hb : gd.batchCoord (ix2 b k) 0 = 0 := GatherDims.batchCoord_eq_zero _ _ _ List.not_mem_nil
    have ho : gd.offCoord (ix2 b k) 0 = b.val := by
      unfold GatherDims.offCoord; rw [dif_pos (by decide)]; rfl
    rw [hs, hb, ho]; omega
  | ⟨1, _⟩ =>
    -- the row axis: the start is component 0 of match k, clamped into [0, 2047]; collapsed, so no offset
    show gd.start (ix2 b k) idx 1 + gd.batchCoord (ix2 b k) 1 + gd.offCoord (ix2 b k) 1 = r.val
    have hm : (1 : Fin 3) ∈ gd.startIndexMap := by decide
    have hs : gd.start (ix2 b k) idx 1 = min (idx (ix2 k 0)).toInt.toNat (2048 - 1) := by
      unfold GatherDims.start; rw [dif_pos hm]
      have hsi : gd.siIdx (ix2 b k) ⟨gd.startIndexMap.idxOf 1, List.idxOf_lt_length_iff.2 hm⟩ = ix2 k 0 := by
        funext e; refine Fin.ext ?_
        match e with
        | ⟨0, _⟩ => rfl
        | ⟨1, _⟩ => rfl
      rw [hsi]; rfl
    have hb : gd.batchCoord (ix2 b k) 1 = 0 := GatherDims.batchCoord_eq_zero _ _ _ List.not_mem_nil
    have ho : gd.offCoord (ix2 b k) 1 = 0 := GatherDims.offCoord_eq_zero _ _ _ (by decide)
    rw [hs, hb, ho, BitVec.toInt_eq_toNat_of_lt (by omega), Int.toNat_natCast]
    omega
  | ⟨2, _⟩ =>
    -- the column axis: the same with component 1
    show gd.start (ix2 b k) idx 2 + gd.batchCoord (ix2 b k) 2 + gd.offCoord (ix2 b k) 2 = c.val
    have hm : (2 : Fin 3) ∈ gd.startIndexMap := by decide
    have hs : gd.start (ix2 b k) idx 2 = min (idx (ix2 k 1)).toInt.toNat (2048 - 1) := by
      unfold GatherDims.start; rw [dif_pos hm]
      have hsi : gd.siIdx (ix2 b k) ⟨gd.startIndexMap.idxOf 2, List.idxOf_lt_length_iff.2 hm⟩ = ix2 k 1 := by
        funext e; refine Fin.ext ?_
        match e with
        | ⟨0, _⟩ => rfl
        | ⟨1, _⟩ => rfl
      rw [hsi]; rfl
    have hb : gd.batchCoord (ix2 b k) 2 = 0 := GatherDims.batchCoord_eq_zero _ _ _ List.not_mem_nil
    have ho : gd.offCoord (ix2 b k) 2 = 0 := GatherDims.offCoord_eq_zero _ _ _ (by decide)
    rw [hs, hb, ho, BitVec.toInt_eq_toNat_of_lt (by omega), Int.toNat_natCast]
    omega

/-- Column 0 of the two joined columns is the first column. -/
theorem cat_apply_left {α : Type} (x y : S1000000x1.Idx → α) (k : Fin 1000000) :
    concatenate S1000000x2 1 [⟨S1000000x1, x⟩, ⟨S1000000x1, y⟩] concatenates_S1000000x1_S1000000x1_S1000000x2_d1 (ix2 k 0)
      = x (ix2 k 0) :=
  concatenate_pair_apply_left (t := S1000000x2) (s₁ := S1000000x1) (s₂ := S1000000x1) 1 x y
    concatenates_S1000000x1_S1000000x1_S1000000x2_d1 (ix2 k 0) rfl (ix2 k 0) (fun b => by
    match b with
    | ⟨0, _⟩ => rfl
    | ⟨1, _⟩ => rfl)

/-- Column 1 of the two joined columns is the second column (its one column, 1 less the first piece's extent 1). -/
theorem cat_apply_right {α : Type} (x y : S1000000x1.Idx → α) (k : Fin 1000000) :
    concatenate S1000000x2 1 [⟨S1000000x1, x⟩, ⟨S1000000x1, y⟩] concatenates_S1000000x1_S1000000x1_S1000000x2_d1 (ix2 k 1)
      = y (ix2 k 0) :=
  concatenate_pair_apply_right (t := S1000000x2) (s₁ := S1000000x1) (s₂ := S1000000x1) 1 x y
    concatenates_S1000000x1_S1000000x1_S1000000x2_d1 (ix2 k 1) rfl rfl (ix2 k 0)
    (fun b hb => by
      match b with
      | ⟨0, _⟩ => rfl
      | ⟨1, _⟩ => exact absurd rfl hb)
    rfl

/-- An index word below 2048 is not negative read signed, so "add 2048 if negative" leaves it as it is. -/
theorem sel_id (w : BitVec 32) (hw : w.toNat < 2048) :
    Scalar.select (IntOp.cmpi .slt w 0#32) (IntOp.addi w 2048#32) w = w := by
  have hlt : w.slt 0#32 = false := by
    simp only [BitVec.slt, BitVec.toInt_zero, decide_eq_false_iff_not, Int.not_lt]
    rw [BitVec.toInt_eq_toNat_of_lt (by omega)]; exact Int.natCast_nonneg _
  show (if BitVec.ofBool (w.slt 0#32) = 1 then _ else _) = _
  rw [hlt]; rfl

/-- The first index column at match k (first copy): component 0 of the match, which the select leaves as it is. -/
theorem v14_apply (a2 : IVec S1000000x2 32) (k : Fin 1000000) (h : (a2 (ix2 k 0)).toNat < 2048) :
    Read.val_main_v14 (F := Ideal) a2 (ix2 k 0) = a2 (ix2 k 0) := by
  have hi : Read.idx_main_v0 (Read.idx_main_v1 (Read.idx_main_v14 (ix2 k 0))) = ix2 k 0 := by
    funext e; refine Fin.ext ?_
    match e with
    | ⟨0, _⟩ => exact Nat.div_one _
    | ⟨1, _⟩ => rfl
  have h1 : Read.val_main_v1 (F := Ideal) a2 (Read.idx_main_v14 (ix2 k 0)) = a2 (ix2 k 0) := by
    rw [Read.val_main_v1_apply, Read.val_main_v0_apply, hi]
  rw [Read.val_main_v14_apply, Read.val_main_v8_apply, Read.val_main_v5_apply, Read.val_main_v7_apply,
    Read.val_main_v4_apply, Read.val_main_v6_apply, Read.val_main_c_apply, Read.val_main_c_0_apply, h1]
  exact sel_id _ h

/-- The second index column at match k (first copy): component 1 of the match. -/
theorem v15_apply (a2 : IVec S1000000x2 32) (k : Fin 1000000) (h : (a2 (ix2 k 1)).toNat < 2048) :
    Read.val_main_v15 (F := Ideal) a2 (ix2 k 0) = a2 (ix2 k 1) := by
  have hi : Read.idx_main_v2 (Read.idx_main_v3 (Read.idx_main_v15 (ix2 k 0))) = ix2 k 1 := by
    funext e; refine Fin.ext ?_
    match e with
    | ⟨0, _⟩ => exact Nat.div_one _
    | ⟨1, _⟩ => rfl
  have h3 : Read.val_main_v3 (F := Ideal) a2 (Read.idx_main_v15 (ix2 k 0)) = a2 (ix2 k 1) := by
    rw [Read.val_main_v3_apply, Read.val_main_v2_apply, hi]
  rw [Read.val_main_v15_apply, Read.val_main_v13_apply, Read.val_main_v10_apply, Read.val_main_v12_apply,
    Read.val_main_v9_apply, Read.val_main_v11_apply, Read.val_main_c_1_apply, Read.val_main_c_2_apply, h3]
  exact sel_id _ h

/-- The first index column at match k (second copy, the one the second array is read at). -/
theorem v28_apply (a2 : IVec S1000000x2 32) (k : Fin 1000000) (h : (a2 (ix2 k 0)).toNat < 2048) :
    Read.val_main_v28 (F := Ideal) a2 (ix2 k 0) = a2 (ix2 k 0) := by
  have hi : Read.idx_main_v0 (Read.idx_main_v1 (Read.idx_main_v28 (ix2 k 0))) = ix2 k 0 := by
    funext e; refine Fin.ext ?_
    match e with
    | ⟨0, _⟩ => exact Nat.div_one _
    | ⟨1, _⟩ => rfl
  have h1 : Read.val_main_v1 (F := Ideal) a2 (Read.idx_main_v28 (ix2 k 0)) = a2 (ix2 k 0) := by
    rw [Read.val_main_v1_apply, Read.val_main_v0_apply, hi]
  rw [Read.val_main_v28_apply, Read.val_main_v22_apply, Read.val_main_v19_apply, Read.val_main_v21_apply,
    Read.val_main_v18_apply, Read.val_main_v20_apply, Read.val_main_c_3_apply, Read.val_main_c_4_apply, h1]
  exact sel_id _ h

/-- The second index column at match k (second copy). -/
theorem v29_apply (a2 : IVec S1000000x2 32) (k : Fin 1000000) (h : (a2 (ix2 k 1)).toNat < 2048) :
    Read.val_main_v29 (F := Ideal) a2 (ix2 k 0) = a2 (ix2 k 1) := by
  have hi : Read.idx_main_v2 (Read.idx_main_v3 (Read.idx_main_v29 (ix2 k 0))) = ix2 k 1 := by
    funext e; refine Fin.ext ?_
    match e with
    | ⟨0, _⟩ => exact Nat.div_one _
    | ⟨1, _⟩ => rfl
  have h3 : Read.val_main_v3 (F := Ideal) a2 (Read.idx_main_v29 (ix2 k 0)) = a2 (ix2 k 1) := by
    rw [Read.val_main_v3_apply, Read.val_main_v2_apply, hi]
  rw [Read.val_main_v29_apply, Read.val_main_v27_apply, Read.val_main_v24_apply, Read.val_main_v26_apply,
    Read.val_main_v23_apply, Read.val_main_v25_apply, Read.val_main_c_5_apply, Read.val_main_c_6_apply, h3]
  exact sel_id _ h

/-- The rebuilt match list (first copy) is the match list itself where the match is in range. -/
theorem v16_apply_0 (a2 : IVec S1000000x2 32) (k : Fin 1000000) (h : (a2 (ix2 k 0)).toNat < 2048) :
    Read.val_main_v16 (F := Ideal) a2 (ix2 k 0) = a2 (ix2 k 0) := by
  unfold Read.val_main_v16; rw [cat_apply_left, v14_apply a2 k h]
theorem v16_apply_1 (a2 : IVec S1000000x2 32) (k : Fin 1000000) (h : (a2 (ix2 k 1)).toNat < 2048) :
    Read.val_main_v16 (F := Ideal) a2 (ix2 k 1) = a2 (ix2 k 1) := by
  unfold Read.val_main_v16; rw [cat_apply_right, v15_apply a2 k h]
/-- The same for the second copy. -/
theorem v30_apply_0 (a2 : IVec S1000000x2 32) (k : Fin 1000000) (h : (a2 (ix2 k 0)).toNat < 2048) :
    Read.val_main_v30 (F := Ideal) a2 (ix2 k 0) = a2 (ix2 k 0) := by
  unfold Read.val_main_v30; rw [cat_apply_left, v28_apply a2 k h]
theorem v30_apply_1 (a2 : IVec S1000000x2 32) (k : Fin 1000000) (h : (a2 (ix2 k 1)).toNat < 2048) :
    Read.val_main_v30 (F := Ideal) a2 (ix2 k 1) = a2 (ix2 k 1) := by
  unfold Read.val_main_v30; rw [cat_apply_right, v29_apply a2 k h]

/-- The first array gathered at (b, k) is its entry at batch b of the cell match k names. -/
theorem v17_apply (a0 : FVec Ideal Arr .f32) (a2 : IVec Pairs 32) (hr : InRange a2) (b : Fin 8) (k : Fin 1000000) :
    Read.val_main_v17 (F := Ideal) a0 a2 (ix2 b k) = a0 (ix3 b (rowOf a2 k) (colOf a2 k)) := by
  unfold Read.val_main_v17
  refine gather_apply a0 _ b k _ _ ?_ ?_
  · rw [v16_apply_0 a2 k (hr _)]; exact (Nat.mod_eq_of_lt (hr _)).symm
  · rw [v16_apply_1 a2 k (hr _)]; exact (Nat.mod_eq_of_lt (hr _)).symm

/-- The second array gathered at (b, k) likewise. -/
theorem v31_apply (a1 : FVec Ideal Arr .f32) (a2 : IVec Pairs 32) (hr : InRange a2) (b : Fin 8) (k : Fin 1000000) :
    Read.val_main_v31 (F := Ideal) a1 a2 (ix2 b k) = a1 (ix3 b (rowOf a2 k) (colOf a2 k)) := by
  unfold Read.val_main_v31
  refine gather_apply a1 _ b k _ _ ?_ ?_
  · rw [v30_apply_0 a2 k (hr _)]; exact (Nat.mod_eq_of_lt (hr _)).symm
  · rw [v30_apply_1 a2 k (hr _)]; exact (Nat.mod_eq_of_lt (hr _)).symm

/-- The negated entry at (b, k) is the loss of the two arrays' entries at batch b of the cell match k names. -/
theorem v44_apply (a0 a1 : FVec Ideal Arr .f32) (a2 : IVec Pairs 32) (hr : InRange a2) (b : Fin 8) (k : Fin 1000000) :
    Read.val_main_v44 (F := Ideal) a0 a1 a2 (ix2 b k)
      = loss (a0 (ix3 b (rowOf a2 k) (colOf a2 k))) (a1 (ix3 b (rowOf a2 k) (colOf a2 k))) := by
  rw [Read.val_main_v44_apply, Read.val_main_v43_apply, Read.val_main_v39_apply, Read.val_main_v42_apply,
    Read.val_main_v34_apply, Read.val_main_v38_apply, Read.val_main_v41_apply, Read.val_main_v32_apply,
    Read.val_main_v36_apply, Read.val_main_v35_apply, Read.val_main_v33_apply, Read.val_main_v37_apply,
    Read.val_main_v40_apply, Read.val_main_cst_apply, Read.val_main_cst_7_apply, Read.val_main_cst_8_apply,
    v17_apply a0 a2 hr, v31_apply a1 a2 hr]
  simp only [Ideal.hostNegf_def, Ideal.negf_def, Ideal.hostUnary_log_def, Ideal.hostUnary_log1p_def,
    Ideal.maximumf_def, Ideal.mulf_def, Ideal.subf_def, Ideal.addf_def, Ideal.ofBits_def]
  rfl

/-- The whole reference on plain arrays: the mean of the sum over the matches. -/
theorem val_eq (a0 a1 : FVec Ideal Arr .f32) (a2 : IVec Pairs 32) (hr : InRange a2) :
    Read.val_main_v46 (F := Ideal) a0 a1 a2 = mean (matchedSum a0 a1 a2) := by
  -- the sum over the [8, 1000000] entries, by match and then by batch
  have key : ∑ j : S8x1000000.Idx, Read.val_main_v44 (F := Ideal) a0 a1 a2 j = matchedSum a0 a1 a2 := by
    rw [sum_idx2, Finset.sum_comm]
    unfold matchedSum cell
    exact Finset.sum_congr rfl fun k _ => Finset.sum_congr rfl fun b _ => v44_apply a0 a1 a2 hr b k
  funext i
  rw [Read.val_main_v46_apply, Read.val_main_v45_apply, Read.val_main_cst_9_apply, Read.val_main_cst_10_apply, key]
  simp only [Ideal.hostDivf_def, Ideal.ofBits_def, Ideal.ofBits_zero_f32, zero_add]
  rfl

/-- On a match list in range the reference's result is `mean (matchedSum …)` of its arguments. -/
theorem ref_value (m : (ℓ : Loc nD τ sig) → Buf (Elt Ideal) ℓ) (c : Dev nD)
    (hr : InRange (m ((c.tc : Thread nD τ).loc main_arg2))) :
    Cert.ReferenceIdeal.Value.res_out0 (F := Ideal) m c
      = mean (matchedSum (m ((c.tc : Thread nD τ).loc main_arg0)) (m ((c.tc : Thread nD τ).loc main_arg1))
          (m ((c.tc : Thread nD τ).loc main_arg2))) :=
  (Read.val_main_v46_eq m c).trans (val_eq _ _ _ hr)

end Cert.ReferenceIdeal.Matched

end
-- ==== Proof.Tiles.lean ====
/-
  The kernel's grid as tiles of the [2048, 2048] cell plane. The 64 grid points are numbered row-major over
  (half, row step, column step) = (2, 8, 4); point t reads the [8, 128, 512] blocks of the two float arrays and the
  [128, 512] block of the multiplicity table whose rows start at (t / 4) · 128 and whose columns start at
  (t % 4) · 512, and accumulates into output block t / 32.
-/
import proofs.«400624_j80985903334130_2_alg».proof.Proof.Gen.KernelIdeal.Frame
import proofs.«400624_j80985903334130_2_alg».proof.Proof.Loss
import Idealize.ShloMosaic.PureOps.Ideal
import Idealize.ShloMosaic.Lib.ValueIdx

noncomputable section

namespace Cert.KernelIdeal.Matched

open Cert.KernelIdeal Cert.KernelIdeal.Gen Idealize.ShloMosaic Idealize.ShloMosaic.TcCoe Idealize.SL.Sem
open Idealize.ShloMosaic.ValueIdx Cert.Matched
open scoped BigOperators

variable (m : (ℓ : Loc nD τ sig) → Buf (Elt Ideal) ℓ)

theorem N_eq : cfg0.N = 64 := N_0

/-- Point s of the half b: halves are runs of 32 consecutive points. -/
def pt (b : Fin 2) (s : Fin 32) : Fin cfg0.N :=
  ⟨32 * b.val + s.val, lt_of_lt_of_eq (by have := b.isLt; have := s.isLt; omega) N_eq.symm⟩

/-- The cell row that row r of point t's tile is, and the cell column that its column q is. -/
def rowAt (t : Fin cfg0.N) (r : Fin 128) : Fin 2048 :=
  ⟨(t.val / 4) * 128 + r.val, by have := lt_of_lt_of_eq t.isLt N_eq; have := r.isLt; omega⟩
def colAt (t : Fin cfg0.N) (q : Fin 512) : Fin 2048 :=
  ⟨(t.val % 4) * 512 + q.val, by have := q.isLt; omega⟩

/-- The three input blocks at point t, by their literal types. -/
abbrev blk0 (c : Dev nD) (t : Fin cfg0.N) : FVec Ideal S8x128x512 .f32 := iblk m c 0 t
abbrev blk1 (c : Dev nD) (t : Fin cfg0.N) : FVec Ideal S8x128x512 .f32 := iblk m c 1 t
abbrev blk2 (c : Dev nD) (t : Fin cfg0.N) : FVec Ideal S128x512 .f32 := iblk m c 2 t

/-- The result array after the run, and the arrays the region finds, by their literal types. -/
abbrev outArr (c : Dev nD) : FVec Ideal S2x1x128 .f32 := (dats m 0 c).arrAt 3 cfg0.N
abbrev predArr (c : Dev nD) : FVec Ideal S8x2048x2048 .f32 := V m c main_arg0
abbrev gtArr (c : Dev nD) : FVec Ideal S8x2048x2048 .f32 := V m c main_arg1
abbrev cntArr (c : Dev nD) : FVec Ideal S2048x2048 .f32 := V m c main_v18

end Cert.KernelIdeal.Matched

end
-- ==== Proof.TileLoss.lean ====
/-
  The body's arithmetic at one grid point: the tile's loss summed over the batch axis, weighted entry by entry by
  the multiplicity block, summed over the tile; and the three small payloads around the accumulator.
-/
import proofs.«400624_j80985903334130_2_alg».proof.Proof.Gen.KernelIdeal.Skeleton
import proofs.«400624_j80985903334130_2_alg».proof.Proof.Loss
import Idealize.ShloMosaic.PureOps.Ideal.Laws
import Idealize.ShloMosaic.Lib.Pipeline.Value
import Idealize.ShloMosaic.Lib.ValueLayout

noncomputable section

namespace Cert.KernelIdeal.Matched

open Cert.KernelIdeal Cert.KernelIdeal.Gen Idealize.ShloMosaic Idealize.ShloMosaic.TcCoe Idealize.SL.Sem
open Idealize.ShloMosaic.ValueIdx Cert.Matched
open scoped BigOperators

/-- One tile's weighted loss. -/
def tileLoss (x0 x1 : FVec Ideal S8x128x512 .f32) (x2 : FVec Ideal S128x512 .f32) : EReal :=
  ∑ r : Fin 128, ∑ q : Fin 512, (∑ b : Fin 8, loss (x0 (ix3 b r q)) (x1 (ix3 b r q))) * x2 (ix2 r q)

/-! ## The three lane sums and the column cast, at explicit coordinates -/

/-- An [8,128,512] array summed over its first axis reads, at (r, q), the sum over b of its entries (b, r, q). -/
theorem sum_axis0_apply (x : FVec Ideal S8x128x512 .f32) (h : S8x128x512.Reduces [0] S128x512) (hφ : FKind.Formats .f32)
    (hacc : (0x00000000#32 : BitVec 32) = FKind.add.neutral .f32 hφ) (r : Fin 128) (q : Fin 512) :
    multiReduction .add [0] S128x512 x 0x00000000#32 h hφ hacc (ix2 r q) = ∑ b : Fin 8, x (ix3 b r q) := by
  refine (Ideal.multiReduction_add_single x _ h hφ hacc (ix2 r q)).trans ?_
  show ∑ b : Fin 8, x (h.lift (ix2 r q) b) = _
  refine Finset.sum_congr rfl fun b _ => congrArg x (funext fun c => Fin.ext ?_)
  match c with
  | ⟨0, _⟩ => rfl
  | ⟨1, _⟩ => rfl
  | ⟨2, _⟩ => rfl

/-- A [128,512] array summed over its second axis reads, at r, the sum over q of its entries (r, q). -/
theorem sum_axis1_apply (x : FVec Ideal S128x512 .f32) (h : S128x512.Reduces [1] S128) (hφ : FKind.Formats .f32)
    (hacc : (0x00000000#32 : BitVec 32) = FKind.add.neutral .f32 hφ) (r : Fin 128) :
    multiReduction .add [1] S128 x 0x00000000#32 h hφ hacc (ix1 r) = ∑ q : Fin 512, x (ix2 r q) := by
  refine (Ideal.multiReduction_add_single x _ h hφ hacc (ix1 r)).trans ?_
  show ∑ q : Fin 512, x (h.lift (ix1 r) q) = _
  refine Finset.sum_congr rfl fun q _ => congrArg x (funext fun c => Fin.ext ?_)
  match c with
  | ⟨0, _⟩ => rfl
  | ⟨1, _⟩ => rfl

/-- A [128,1] array summed over its first axis reads, at its one index, the sum over r of its entries (r, 0). -/
theorem sum_rows_apply (x : FVec Ideal S128x1 .f32) (h : S128x1.Reduces [0] S1) (hφ : FKind.Formats .f32)
    (hacc : (0x00000000#32 : BitVec 32) = FKind.add.neutral .f32 hφ) (u : Fin 1) :
    multiReduction .add [0] S1 x 0x00000000#32 h hφ hacc (ix1 u) = ∑ r : Fin 128, x (ix2 r u) := by
  refine (Ideal.multiReduction_add_single x _ h hφ hacc (ix1 u)).trans ?_
  show ∑ r : Fin 128, x (h.lift (ix1 u) r) = _
  refine Finset.sum_congr rfl fun r _ => congrArg x (funext fun c => Fin.ext ?_)
  match c with
  | ⟨0, _⟩ => rfl
  | ⟨1, _⟩ => rfl

/-- An [a] array cast to [a,1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## One entry -/

/-- One entry of the negated mix, the two negations spelt as differences from the zero word, is the entry's loss. -/
theorem entry_eq_loss (p g : EReal) :
    Ideal.ofBits .f32 0x00000000#32
        - (g * max (Ideal.log p) (Ideal.ofBits .f32 0xC2C80000#32)
          + (Ideal.ofBits .f32 0x3F800000#32 - g)
            * max (Ideal.log1p (Ideal.ofBits .f32 0x00000000#32 - p)) (Ideal.ofBits .f32 0xC2C80000#32))
      = loss p g := by
  unfold loss
  rw [Ideal.ofBits_zero_f32, zero_sub, zero_sub]

/-! ## The payloads -/

/-- The one index of a [1,1,1] array. -/
theorem idx111 (j : S1x1x1.Idx) : j = ix3 (0 : Fin 1) (0 : Fin 1) (0 : Fin 1) := by
  funext c
  apply Fin.ext
  match c with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

/-- The reduction payload is the tile's weighted loss. -/
theorem pay4_apply (x0 x1 : FVec Ideal S8x128x512 .f32) (x2 : FVec Ideal S128x512 .f32) (j : S1x1x1.Idx) :
    k0_pay4 (F := Ideal) x0 x1 x2 j = tileLoss x0 x1 x2 := by
  rw [idx111 j]
  unfold k0_pay4 tileLoss
  dsimp only
  -- the three outer casts: to the same shape, then two leading unit axes dropped
  refine (congrFun (shapeCast_self _ _) _).trans ?_
  refine (shapeCast_ab_1ab_apply _ _ (0 : Fin 1) (0 : Fin 1) (0 : Fin 1)).trans ?_
  refine (shapeCast_a_1a_apply _ _ (0 : Fin 1) (0 : Fin 1)).trans ?_
  -- the sum over the rows, of the column of row sums
  refine (sum_rows_apply _ _ _ _ (0 : Fin 1)).trans ?_
  refine Finset.sum_congr rfl fun r _ => ?_
  refine (shapeCast_a_a1_apply _ _ r (0 : Fin 1)).trans ?_
  refine (sum_axis1_apply _ _ _ _ r).trans ?_
  refine Finset.sum_congr rfl fun q _ => ?_
  -- one entry: the batch sum times the multiplicity
  refine (mulf_apply _ _ _).trans ?_
  refine congrArg₂ (· * ·) ?_ (congrFun (shapeCast_self _ _) _)
  refine (sum_axis0_apply _ _ _ _ r q).trans ?_
  refine Finset.sum_congr rfl fun b _ => ?_
  exact entry_eq_loss (x0 (ix3 b r q)) (x1 (ix3 b r q))

/-- The reset payload is zero. -/
theorem pay2_apply (y : S1x1x128.Idx) : (k0_pay2 (F := Ideal)) y = 0 := by
  unfold k0_pay2
  exact Ideal.ofBits_zero_f32

/-- The accumulator is read back as stored. -/
theorem pay3_apply (v : FVec Ideal S1x1x128 .f32) (y : S1x1x128.Idx) : k0_pay3 (F := Ideal) v y = v y := by
  unfold k0_pay3
  exact congrFun (shapeCast_self _ _) _

/-- The update adds the tile's value to every lane. -/
theorem pay1_apply (v31 : FVec Ideal S1x1x128 .f32) (v33 : FVec Ideal S1x1x1 .f32) (y : S1x1x128.Idx) :
    k0_pay1 (F := Ideal) v31 v33 y = v31 y + v33 (ix3 0 0 0) := by
  unfold k0_pay1
  refine (addf_apply _ _ _).trans ?_
  refine congrArg (v31 y + ·) ?_
  refine broadcastTo_apply v33 _ y _ fun a => ?_
  match a with
  | ⟨0, _⟩ => rfl
  | ⟨1, _⟩ => rfl
  | ⟨2, _⟩ => rfl

end Cert.KernelIdeal.Matched

end
-- ==== Proof.CoreTotals.lean ====
/-
  What the region leaves in the result array: lane l of block b holds the sum of the 32 tile losses of half b.
  Within a half the first point resets the accumulator and every point adds its tile's loss; the block is written
  back once, after the half's last point.
-/
import proofs.«400624_j80985903334130_2_alg».proof.Proof.Tiles
import proofs.«400624_j80985903334130_2_alg».proof.Proof.TileLoss
import Idealize.ShloMosaic.Lib.Pipeline.Value
import Idealize.ShloMosaic.Lib.Tactic

noncomputable section

namespace Cert.KernelIdeal.Matched

open Cert.KernelIdeal Cert.KernelIdeal.Gen Idealize.ShloMosaic Idealize.ShloMosaic.TcCoe Idealize.SL.Sem
open Idealize.ShloMosaic.ValueIdx Cert.Matched
open scoped BigOperators

/-- The all-zero offsets of a rank-3 and of a rank-2 block. -/
theorem off3_zero : (![0, 0, 0] : Fin 3 → Nat) = fun _ => 0 := funext fun a => by fin_cases a <;> rfl
theorem off2_zero : (![0, 0] : Fin 2 → Nat) = fun _ => 0 := funext fun a => by fin_cases a <;> rfl

/-! ## What one point leaves in the accumulator block -/

section pieces
variable {F : FTy → Type} [FloatOps F]

/-- At a point that is not the first of its half the block ends at the update of what it held: the one store's
    value, its loads reading the whole blocks. -/
theorem left_later (c : Dev nD) (i : grid0.Coords) (a3 : Memref sig .tc .vmem S8x128x512 .f32) (h3 : a3.IsWhole)
    (a4 : Memref sig .tc .vmem S8x128x512 .f32) (h4 : a4.IsWhole) (a5 : Memref sig .tc .vmem S128x512 .f32) (h5 : a5.IsWhole)
    (a6 : Memref sig .tc .vmem S1x1x128 .f32) (h6 : a6.IsWhole) (hc : ¬cond0_0 i)
    (x0 x1 : Vec F S8x128x512 .f32) (x2 : Vec F S128x512 .f32) (xo : Vec F S1x1x128 .f32) :
    out0_B_3 c i a3 h3 a4 h4 a5 h5 a6 h6 hc x0 x1 x2 xo = k0_pay1 (k0_pay3 xo) (k0_pay4 x0 x1 x2) := by
  unfold out0_B_3
  rw [View.read_writes_eq_canon _ _ _ (cover0_B_3 c i a3 h3 a4 h4 a5 h5 a6 h6 hc x0 x1 x2 xo)]
  unfold kernelRun0_B
  dsimp only
  sl_unfold_words
  rw [View.canon_unit_zero off3_zero]
  simp only [View.readAt_eq_ld, h3.read_unread, h4.read_unread, h5.read_unread, h6.read_unread,
    View.ld_unit_zero (S := S8x128x512) off3_zero, View.ld_unit_zero (S := S128x512) off2_zero,
    View.ld_unit_zero (S := S1x1x128) off3_zero]

/-- At the first point of a half the zero block is stored first and read back, so the block ends at the update of
    zero: the later store covers the earlier one. -/
theorem left_first (c : Dev nD) (i : grid0.Coords) (a3 : Memref sig .tc .vmem S8x128x512 .f32) (h3 : a3.IsWhole)
    (a4 : Memref sig .tc .vmem S8x128x512 .f32) (h4 : a4.IsWhole) (a5 : Memref sig .tc .vmem S128x512 .f32) (h5 : a5.IsWhole)
    (a6 : Memref sig .tc .vmem S1x1x128 .f32) (h6 : a6.IsWhole) (hc : cond0_0 i)
    (x0 x1 : Vec F S8x128x512 .f32) (x2 : Vec F S128x512 .f32) :
    out0_A_3 c i a3 h3 a4 h4 a5 h5 a6 h6 hc x0 x1 x2 = k0_pay1 (k0_pay3 (k0_pay2 (F := F))) (k0_pay4 x0 x1 x2) := by
  unfold out0_A_3
  rw [View.read_writes_eq_canon _ _ _ (cover0_A_3 c i a3 h3 a4 h4 a5 h5 a6 h6 hc x0 x1 x2)]
  unfold kernelRun0_A
  dsimp only
  sl_unfold_words
  rw [View.canon_cons_unit_zero (S := S1x1x128) off3_zero]
  simp only [View.readAt_eq_ld, h3.read_unread, h4.read_unread, h5.read_unread, h6.read_unread,
    View.readCov_unit_zero (S := S1x1x128) _ off3_zero,
    View.ld_unit_zero (S := S8x128x512) off3_zero, View.ld_unit_zero (S := S128x512) off2_zero,
    View.ld_unit_zero (S := S1x1x128) off3_zero]

end pieces

/-- Lane y after a later point: what the lane held plus the tile's weighted loss. -/
theorem left_later_apply (c : Dev nD) (i : grid0.Coords) (a3 : Memref sig .tc .vmem S8x128x512 .f32) (h3 : a3.IsWhole)
    (a4 : Memref sig .tc .vmem S8x128x512 .f32) (h4 : a4.IsWhole) (a5 : Memref sig .tc .vmem S128x512 .f32) (h5 : a5.IsWhole)
    (a6 : Memref sig .tc .vmem S1x1x128 .f32) (h6 : a6.IsWhole) (hc : ¬cond0_0 i)
    (x0 x1 : FVec Ideal S8x128x512 .f32) (x2 : FVec Ideal S128x512 .f32) (xo : FVec Ideal S1x1x128 .f32) (y : S1x1x128.Idx) :
    out0_B_3 (F := Ideal) c i a3 h3 a4 h4 a5 h5 a6 h6 hc x0 x1 x2 xo y = xo y + tileLoss x0 x1 x2 := by
  refine (congrFun (left_later (F := Ideal) c i a3 h3 a4 h4 a5 h5 a6 h6 hc x0 x1 x2 xo) y).trans ?_
  rw [pay1_apply, pay3_apply, pay4_apply]

/-- Lane y after the first point of a half: zero plus the tile's weighted loss. -/
theorem left_first_apply (c : Dev nD) (i : grid0.Coords) (a3 : Memref sig .tc .vmem S8x128x512 .f32) (h3 : a3.IsWhole)
    (a4 : Memref sig .tc .vmem S8x128x512 .f32) (h4 : a4.IsWhole) (a5 : Memref sig .tc .vmem S128x512 .f32) (h5 : a5.IsWhole)
    (a6 : Memref sig .tc .vmem S1x1x128 .f32) (h6 : a6.IsWhole) (hc : cond0_0 i)
    (x0 x1 : FVec Ideal S8x128x512 .f32) (x2 : FVec Ideal S128x512 .f32) (y : S1x1x128.Idx) :
    out0_A_3 (F := Ideal) c i a3 h3 a4 h4 a5 h5 a6 h6 hc x0 x1 x2 y = 0 + tileLoss x0 x1 x2 := by
  refine (congrFun (left_first (F := Ideal) c i a3 h3 a4 h4 a5 h5 a6 h6 hc x0 x1 x2) y).trans ?_
  rw [pay1_apply, pay3_apply, pay2_apply, pay4_apply]

variable (m : (ℓ : Loc nD τ sig) → Buf (Elt Ideal) ℓ)

/-- The weighted loss of the tile point t reads. -/
def tileAt (c : Dev nD) (t : Fin cfg0.N) : EReal := tileLoss (blk0 m c t) (blk1 m c t) (blk2 m c t)

/-! ## The running total within a half -/

/-- The first point of a half leaves its own tile's loss (over zero) in every lane. -/
theorem after_first (c : Dev nD) (t : Fin cfg0.N) (h0 : t.val % 32 = 0) (y : S1x1x128.Idx) :
    outsAt0 m c t.val t.isLt y = 0 + tileAt m c t := by
  rw [outsAt0_A m c t h0]
  exact left_first_apply c (grid0.coords t) (ms0_0 t) (hs0_0 t) (ms0_1 t) (hs0_1 t) (ms0_2 t) (hs0_2 t) (ms0_3 t) (hs0_3 t)
    ((hcond0_0 t).mpr h0) (blk0 m c t) (blk1 m c t) (blk2 m c t) y

/-- Every other point adds its tile's loss to what the point before left. -/
theorem after_later (c : Dev nD) (t : Fin cfg0.N) (h0 : ¬t.val % 32 = 0) (y : S1x1x128.Idx) :
    outsAt0 m c t.val t.isLt y
      = outsAt0 m c (t.val - 1) (Nat.lt_of_le_of_lt (Nat.sub_le _ _) t.isLt) y + tileAt m c t := by
  rw [outsAt0_B m c t h0]
  exact left_later_apply c (grid0.coords t) (ms0_0 t) (hs0_0 t) (ms0_1 t) (hs0_1 t) (ms0_2 t) (hs0_2 t) (ms0_3 t) (hs0_3 t)
    (fun h => h0 ((hcond0_0 t).mp h)) (blk0 m c t) (blk1 m c t) (blk2 m c t)
    (outsAt0 m c (t.val - 1) (Nat.lt_of_le_of_lt (Nat.sub_le _ _) t.isLt)) y

/-- The tile loss of the point numbered n, zero past the grid (so that a sum over a range of numbers needs no bound). -/
def tileNum (c : Dev nD) (n : ℕ) : EReal := if h : n < cfg0.N then tileAt m c ⟨n, h⟩ else 0

theorem tileNum_of_lt (c : Dev nD) (n : ℕ) (h : n < cfg0.N) : tileNum m c n = tileAt m c ⟨n, h⟩ := dif_pos h

/-- After point n every lane holds the sum of the tile losses from the first point of n's half up to n. -/
theorem running (c : Dev nD) (n : ℕ) : ∀ (hn : n < cfg0.N) (y : S1x1x128.Idx),
    outsAt0 m c n hn y = ∑ i ∈ Finset.range (n % 32 + 1), tileNum m c (32 * (n / 32) + i) := by
  induction n with
  | zero =>
    intro hn y
    refine (after_first m c ⟨0, hn⟩ (Nat.zero_mod 32) y).trans ?_
    have e1 : 0 % 32 + 1 = 1 := rfl
    have e2 : 32 * (0 / 32) + 0 = 0 := rfl
    rw [e1, Finset.sum_range_one, e2, zero_add, tileNum_of_lt m c 0 hn]
  | succ n ih =>
    intro hn y
    by_cases h0 : (n + 1) % 32 = 0
    · refine (after_first m c ⟨n + 1, hn⟩ h0 y).trans ?_
      have e1 : (n + 1) % 32 + 1 = 1 := by omega
      have e2 : 32 * ((n + 1) / 32) + 0 = n + 1 := by omega
      rw [e1, Finset.sum_range_one, e2, zero_add, tileNum_of_lt m c (n + 1) hn]
    · refine (after_later m c ⟨n + 1, hn⟩ h0 y).trans ?_
      show outsAt0 m c n _ y + tileAt m c ⟨n + 1, hn⟩ = _
      rw [ih (Nat.lt_of_succ_lt hn) y]
      have e1 : (n + 1) % 32 + 1 = (n % 32 + 1) + 1 := by omega
      have e2 : (n + 1) / 32 = n / 32 := by omega
      have e3 : 32 * (n / 32) + (n % 32 + 1) = n + 1 := by omega
      rw [e1, e2, Finset.sum_range_succ _ (n % 32 + 1), e3, tileNum_of_lt m c (n + 1) hn]

/-- At the last point of a half every lane holds the sum over the half's 32 points. -/
theorem half_total (c : Dev nD) (t : Fin cfg0.N) (h31 : t.val % 32 = 31) (hb : t.val / 32 < 2) (y : S1x1x128.Idx) :
    outsAt0 m c t.val t.isLt y = ∑ s : Fin 32, tileAt m c (pt ⟨t.val / 32, hb⟩ s) := by
  refine (running m c t.val t.isLt y).trans ?_
  have e1 : t.val % 32 + 1 = 32 := by omega
  rw [e1, Finset.sum_range]
  exact Finset.sum_congr rfl fun s _ => tileNum_of_lt m c _ (pt ⟨t.val / 32, hb⟩ s).isLt

/-! ## From the accumulator block to the result array -/

/-- The result block a point accumulates into is its half, at offset zero on the two other axes. -/
theorem out_index : ∀ t : Fin cfg0.N, win0_3.index t (0 : Fin 3) = t.val / 32
    ∧ win0_3.index t (1 : Fin 3) = 0 ∧ win0_3.index t (2 : Fin 3) = 0 :=
  (by decide +kernel : ∀ t : Fin grid0.N, win0_3.index t (0 : Fin 3) = t.val / 32
    ∧ win0_3.index t (1 : Fin 3) = 0 ∧ win0_3.index t (2 : Fin 3) = 0)

/-- The result array: every lane of block b at the sum of the 32 tile losses of half b. -/
def totals (c : Dev nD) : FVec Ideal S2x1x128 .f32 :=
  fun j => ∑ s : Fin 32, tileAt m c (pt ⟨(j 0).val, (j 0).isLt⟩ s)

/-- What is written back after the last point of a half is that half's block of the totals. -/
theorem written_back (c : Dev nD) (t : Fin cfg0.N) (hf : (cfg0.win 3).flush t = true) :
    (dats m 0 c).flushed 3 t = ((cfg0.win 3).blk t).view.read (Elt Ideal) (totals m c) := by
  have h31 : t.val % 32 = 31 := (flush0_3 t).mp hf
  have hN : t.val < 64 := lt_of_lt_of_eq t.isLt N_eq
  have hb : t.val / 32 < 2 := by omega
  show (cfg0.win 3).cut (grid0.coords t) ((dats m 0 c).after 3 t) = _
  rw [after0_3]
  funext y
  show outsAt0 m c t.val t.isLt ((cfg0.win 3).xinj (grid0.coords t) y) = totals m c (((cfg0.win 3).blk t).view.emb y)
  rw [half_total m c t h31 hb]
  unfold totals
  refine Finset.sum_congr rfl fun s _ => congrArg (fun b => tileAt m c (pt b s)) (Fin.ext ?_)
  show t.val / 32 = win0_3.index t (0 : Fin 3) * 1 + 1 * (y 0).val
  have hy : (y 0).val < 1 := (y 0).isLt
  have := (out_index t).1
  omega

/-- Every entry of the result array lies in the block written back after the last point of its half. -/
theorem covered (i : S2x1x128.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 128 := (i 2).isLt
  have ht : 32 * (i 0).val + 31 < cfg0.N := lt_of_lt_of_eq (by omega) N_eq.symm
  refine ⟨⟨32 * (i 0).val + 31, ht⟩, (flush0_3 _).mpr (by show (32 * (i 0).val + 31) % 32 = 31; omega), ?_⟩
  show i ∈ ((View.whole main_v19).slice (win0_3.rect ⟨32 * (i 0).val + 31, ht⟩)).set
  rw [View.set_slice_whole, Rect.mem_set_unit]
  obtain ⟨e0, e1, e2⟩ := out_index ⟨32 * (i 0).val + 31, ht⟩
  have e0' : win0_3.index ⟨32 * (i 0).val + 31, ht⟩ (0 : Fin 3) = (32 * (i 0).val + 31) / 32 := e0
  intro a
  match a with
  | ⟨0, _⟩ =>
    show win0_3.index ⟨32 * (i 0).val + 31, ht⟩ (0 : Fin 3) * 1 ≤ (i 0).val
      ∧ (i 0).val < win0_3.index ⟨32 * (i 0).val + 31, ht⟩ (0 : Fin 3) * 1 + 1
    omega
  | ⟨1, _⟩ =>
    show win0_3.index ⟨32 * (i 0).val + 31, ht⟩ (1 : Fin 3) * 1 ≤ (i 1).val
      ∧ (i 1).val < win0_3.index ⟨32 * (i 0).val + 31, ht⟩ (1 : Fin 3) * 1 + 1
    omega
  | ⟨2, _⟩ =>
    show win0_3.index ⟨32 * (i 0).val + 31, ht⟩ (2 : Fin 3) * 128 ≤ (i 2).val
      ∧ (i 2).val < win0_3.index ⟨32 * (i 0).val + 31, ht⟩ (2 : Fin 3) * 128 + 128
    omega

/-- The result array after the run is the totals. -/
theorem outArr_eq (c : Dev nD) : outArr m c = totals m c :=
  (dats m 0 c).arrAt_eq_of_cover 3 (totals m c) (written_back m c) covered

/-- After the run every lane of result block b is the sum over the half's 32 points. -/
theorem final_block (c : Dev nD) (b : Fin 2) (l : Fin 128) :
    outArr m c (ix3 b 0 l) = ∑ s : Fin 32, tileAt m c (pt b s) := by
  rw [outArr_eq]
  rfl

end Cert.KernelIdeal.Matched

end
-- ==== Proof.Epilogue.lean ====
/-
  Reading the input blocks off the arrays, and the host operations after the region: the two halves' lane 0 are
  added and the sum divided by the number of matches.
-/
import proofs.«400624_j80985903334130_2_alg».proof.Proof.Tiles
import proofs.«400624_j80985903334130_2_alg».proof.Proof.Loss
import Idealize.ShloMosaic.Lib.Pipeline.Value
import Idealize.ShloMosaic.Lib.StableHlo.Run

noncomputable section

namespace Cert.KernelIdeal.Matched

open Cert.KernelIdeal Cert.KernelIdeal.Gen Idealize.ShloMosaic Idealize.ShloMosaic.TcCoe Idealize.SL.Sem
open Idealize.ShloMosaic.ValueIdx Cert.Matched
open scoped BigOperators

variable (m : (ℓ : Loc nD τ sig) → Buf (Elt Ideal) ℓ)

/-- The printed index maps over the grid: at point t the two float windows sit at block (0, t / 4, t % 4) and the
    count window at block (t / 4, t % 4). -/
theorem inputBlockIndex : ∀ t : Fin cfg0.N,
    win0_0.index t (0 : Fin 3) = 0 ∧ win0_0.index t (1 : Fin 3) = t.val / 4 ∧ win0_0.index t (2 : Fin 3) = t.val % 4
    ∧ win0_1.index t (0 : Fin 3) = 0 ∧ win0_1.index t (1 : Fin 3) = t.val / 4 ∧ win0_1.index t (2 : Fin 3) = t.val % 4
    ∧ win0_2.index t (0 : Fin 2) = t.val / 4 ∧ win0_2.index t (1 : Fin 2) = t.val % 4 :=
  (by decide +kernel : ∀ t : Fin grid0.N, _)

/-- Entry (b, r, q) of point t's block of the first float array is the array's entry at the tile's cell. -/
theorem blk0_apply (c : Dev nD) (t : Fin cfg0.N) (b : Fin 8) (r : Fin 128) (q : Fin 512) :
    blk0 m c t (ix3 b r q) = predArr m c (ix3 b (rowAt t r) (colAt t q)) := by
  obtain ⟨e0, e1, e2, -⟩ := inputBlockIndex t
  show V m c main_arg0 (((cfg0.win 0).blk t).view.emb (ix3 b r q)) = V m c main_arg0 (ix3 b (rowAt t r) (colAt t q))
  refine congrArg (V m c main_arg0) ?_
  -- a block's coordinate on an axis is the block index times the block's extent plus the coordinate inside it
  funext a; apply Fin.ext
  match a with
  | ⟨0, _⟩ => show win0_0.index t (0 : Fin 3) * 8 + 1 * b.val = b.val; omega
  | ⟨1, _⟩ => show win0_0.index t (1 : Fin 3) * 128 + 1 * r.val = t.val / 4 * 128 + r.val; omega
  | ⟨2, _⟩ => show win0_0.index t (2 : Fin 3) * 512 + 1 * q.val = t.val % 4 * 512 + q.val; omega

theorem blk1_apply (c : Dev nD) (t : Fin cfg0.N) (b : Fin 8) (r : Fin 128) (q : Fin 512) :
    blk1 m c t (ix3 b r q) = gtArr m c (ix3 b (rowAt t r) (colAt t q)) := by
  obtain ⟨-, -, -, e0, e1, e2, -⟩ := inputBlockIndex t
  show V m c main_arg1 (((cfg0.win 1).blk t).view.emb (ix3 b r q)) = V m c main_arg1 (ix3 b (rowAt t r) (colAt t q))
  refine congrArg (V m c main_arg1) ?_
  funext a; apply Fin.ext
  match a with
  | ⟨0, _⟩ => show win0_1.index t (0 : Fin 3) * 8 + 1 * b.val = b.val; omega
  | ⟨1, _⟩ => show win0_1.index t (1 : Fin 3) * 128 + 1 * r.val = t.val / 4 * 128 + r.val; omega
  | ⟨2, _⟩ => show win0_1.index t (2 : Fin 3) * 512 + 1 * q.val = t.val % 4 * 512 + q.val; omega

theorem blk2_apply (c : Dev nD) (t : Fin cfg0.N) (r : Fin 128) (q : Fin 512) :
    blk2 m c t (ix2 r q) = cntArr m c (ix2 (rowAt t r) (colAt t q)) := by
  obtain ⟨-, -, -, -, -, -, e0, e1⟩ := inputBlockIndex t
  show V m c main_v18 (((cfg0.win 2).blk t).view.emb (ix2 r q)) = V m c main_v18 (ix2 (rowAt t r) (colAt t q))
  refine congrArg (V m c main_v18) ?_
  funext a; apply Fin.ext
  match a with
  | ⟨0, _⟩ => show win0_2.index t (0 : Fin 2) * 128 + 1 * r.val = t.val / 4 * 128 + r.val; omega
  | ⟨1, _⟩ => show win0_2.index t (1 : Fin 2) * 512 + 1 * q.val = t.val % 4 * 512 + q.val; omega

/-- The scalar cut from a [2, 1, 128] array as the one-entry slice at (h, 0, 0), recast to rank 0, is the array's
    entry (h, 0, 0): the recast keeps the row-major position (0 on both sides), the slice shifts by its offsets. -/
theorem scalarSlice_apply (x : FVec Ideal S2x1x128 .f32) (h : Fin 2) (hs : S2x1x128.Slices ![h.val, 0, 0] S1x1x1) (i : S_.Idx) :
    shapeCast S_ (extractStridedSlice S1x1x1 ![h.val, 0, 0] x hs) shapeCasts_S1x1x1_S_ i = x (ix3 h 0 0) := by
  refine (shapeCast_apply _ shapeCasts_S1x1x1_S_ i (ix3 0 0 0) ?_).trans ?_
  · rw [Shape.rowMajor_val_three]
    show (0 * 1 + 0) * 1 + 0 = (Shape.rowMajorPi _ i).val
    rw [Shape.rowMajorPi_zero]
  · exact extractStridedSlice_apply ![h.val, 0, 0] x hs (ix3 0 0 0) (ix3 h 0 0) (fun a => match a with
      | ⟨0, _⟩ => by show h.val = h.val + 0; omega
      | ⟨1, _⟩ => by show 0 = 0 + 0; omega
      | ⟨2, _⟩ => by show 0 = 0 + 0; omega)

/-- The result after the host operations that follow the region. -/
theorem tail_value (c : Dev nD) :
    Pipeline.afterTail₀ cfgs (dats m) 0 (V0 m) [hostOps1] c main_v25
      = mean (outArr m c (ix3 0 0 0) + outArr m c (ix3 1 0 0)) := by
  unfold Pipeline.afterTail₀
  show StableHlo.after hostOps1 _ (Proc.devRef .tc main_v25) = _
  after_results
  -- the result array the later lines find is the one the region leaves
  have hA : Pipeline.withArrays (cfgs 0).spec c (V0 m c) (fun w => (dats m 0 c).arrAt w (cfgs 0).N)
      (Proc.devRef .tc main_v19) = outArr m c :=
    (Pipeline.withArrays_arr spec0 launch0.win.arr_inj c _ _ 3).trans rfl
  rw [hA]
  funext i
  -- the quotient of the sum of the two scalars by the constant, entry by entry
  show Ideal.div
      (shapeCast S_ (extractStridedSlice S1x1x1 ![0, 0, 0] (outArr m c) slices_S2x1x128_S1x1x1_0_0_0) shapeCasts_S1x1x1_S_ i
        + shapeCast S_ (extractStridedSlice S1x1x1 ![1, 0, 0] (outArr m c) slices_S2x1x128_S1x1x1_1_0_0) shapeCasts_S1x1x1_S_ i)
      (Ideal.ofBits .f32 0x49742400#32)
    = Ideal.div (outArr m c (ix3 0 0 0) + outArr m c (ix3 1 0 0)) (Ideal.ofBits .f32 0x49742400#32)
  have h0 := scalarSlice_apply (outArr m c) 0 slices_S2x1x128_S1x1x1_0_0_0 i
  have h1 := scalarSlice_apply (outArr m c) 1 slices_S2x1x128_S1x1x1_1_0_0 i
  exact congrArg (fun S => Ideal.div S (Ideal.ofBits .f32 0x49742400#32)) (congrArg₂ (· + ·) h0 h1)

end Cert.KernelIdeal.Matched

end
-- ==== Proof.Multiplicity.lean ====
/-
  The table the kernel builds before the region: entry (r, c) is the number of matches naming cell (r, c).
-/
import proofs.«400624_j80985903334130_2_alg».proof.Proof.Gen.KernelIdeal.Frame
import proofs.«400624_j80985903334130_2_alg».proof.Proof.Loss
import Idealize.ShloMosaic.Lib.StableHlo.Run
import Idealize.ShloMosaic.Lib.StableHlo.Predicate
import Idealize.ShloMosaic.Lib.Pipeline.Value

noncomputable section

namespace Cert.KernelIdeal.Matched

open Cert.KernelIdeal Cert.KernelIdeal.Gen Idealize.ShloMosaic Idealize.ShloMosaic.TcCoe Idealize.SL.Sem
open Idealize.ShloMosaic.ValueIdx Cert.Matched

variable (m : (ℓ : Loc nD τ sig) → Buf (Elt Ideal) ℓ)

namespace Multiplicity

/-! ## Counting: a scatter that adds one -/

/-- A left fold of "add one at the slot the step names" over a list of steps: each slot ends at its start plus the
    number of steps in the list that name it. -/
theorem foldl_count {ι : Type} {N : ℕ} [DecidableEq ι] (g : Fin N → Option ι)
    (step : (ι → BitVec 32) → Fin N → ι → BitVec 32)
    (hstep : ∀ r n j, step r n j = if g n = some j then r j + 1#32 else r j)
    (L : List (Fin N)) (x : ι → BitVec 32) (j : ι) :
    L.foldl step x j = x j + BitVec.ofNat 32 (L.countP fun n => decide (g n = some j)) := by
  induction L generalizing x with
  | nil => rw [List.foldl_nil, List.countP_nil]; exact (BitVec.add_zero _).symm
  | cons n L ih =>
    rw [List.foldl_cons, ih, hstep, List.countP_cons]
    by_cases h : g n = some j
    · rw [if_pos h, if_pos (decide_eq_true h), BitVec.ofNat_add, BitVec.add_assoc, BitVec.add_comm 1#32]
    · rw [if_neg h, if_neg (by simpa using h), Nat.add_zero]

/-- Counting the positions of `0 … N - 1` with a property, in order, is the size of the set of them. -/
theorem countP_finRange {N : ℕ} (p : Fin N → Prop) [DecidablePred p] :
    (List.finRange N).countP (fun n => decide (p n)) = (Finset.univ.filter p).card := by
  rw [List.countP_eq_length_filter, Fin.univ_def]
  rfl

/-- A scatter that adds the constant one: each element ends at its start plus the number of updates landing on it
    (as a word: the sum wraps). -/
theorem scatter_addi_one {s si u : Shape} {w : ℕ} (d : ScatterDims s si u) (x : s.Idx → BitVec 32) (idx : IVec si w)
    (upd : u.Idx → BitVec 32) (hupd : ∀ j, upd j = 1#32) (i : s.Idx) :
    Host.scatter d IntOp.addi x idx upd i
      = x i + BitVec.ofNat 32 (Finset.univ.filter fun j : u.Idx => d.resultIdx? j idx = some i).card := by
  unfold Host.scatter
  rw [foldl_count (fun n => d.resultIdx? (u.rowMajor.symm n) idx) _ (fun r n j => ?_), countP_finRange]
  · congr 2
    exact Finset.card_equiv u.rowMajor.symm fun n => by
      simp only [Finset.mem_filter, Finset.mem_univ, true_and]
  · -- one step of the fold, at slot j
    generalize d.resultIdx? (u.rowMajor.symm n) idx = o
    cases o with
    | none => exact (if_neg (by simp)).symm
    | some i' =>
      show (if j = i' then IntOp.addi (r i') (upd (u.rowMajor.symm n)) else r j) = _
      by_cases hj : j = i'
      · subst hj; rw [if_pos rfl, if_pos rfl, hupd]; rfl
      · rw [if_neg hj, if_neg (fun e => hj (Option.some.inj e).symm)]

/-! ## Where an update lands -/

/-- A vector's positions as its indices. -/
def idxEquiv1 {n : ℕ} : Fin n ≃ (⟨1, ![n]⟩ : Shape).Idx where
  toFun := ix1
  invFun j := j 0
  left_inv _ := rfl
  right_inv j := (eq_ix1 j).symm

/-- A scatter of scalars into a vector, one start index per update (the start indices a column; the vector's one axis
    inserted and start-indexed, no window axes, the index vector on axis 1): update `k` lands at position `p` exactly
    when its start index, read signed, is `p`. -/
theorem resultIdx?_eq_some_iff {N n w : ℕ} (d : ScatterDims ⟨1, ![N]⟩ ⟨2, ![n, 1]⟩ ⟨1, ![n]⟩)
    (hins : d.insertedWindowDims = [0]) (hsd : d.scatterDimsToOperandDims = [0]) (hivd : d.indexVectorDim = 1)
    (idx : IVec ⟨2, ![n, 1]⟩ w) (k : Fin n) (p : Fin N) :
    d.resultIdx? (ix1 k) idx = some (ix1 p) ↔ (idx (ix2 k 0)).toInt = (p.val : ℤ) := by
  have hm : (0 : Fin 1) ∈ d.scatterDimsToOperandDims := by rw [hsd]; exact List.mem_singleton.mpr rfl
  have hk : (0 : Fin 1) ∉ d.sKept := by
    simp [ScatterDims.sKept, Shape.kept, hins]
  have hstart : ∀ a, d.start (ix1 k) idx a = (idx (ix2 k 0)).toInt := by
    intro a
    have ha : a = 0 := Subsingleton.elim _ _
    subst ha
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 k : (⟨1, ![n]⟩ : Shape).Idx) X).val = k.val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hwin : ∀ a, d.window (ix1 k) a = 0 := by
    intro a
    have ha : a = 0 := Subsingleton.elim _ _
    subst ha
    unfold ScatterDims.window
    rw [dif_neg hk]
  unfold ScatterDims.resultIdx?
  split
  · next h =>
    rw [Option.some.injEq]
    have h0 := h 0
    rw [hstart, hwin] at h0
    constructor
    · intro e
      have e0 := congrArg (fun f : (⟨1, ![N]⟩ : Shape).Idx => (f 0).val) e
      change (d.start (ix1 k) idx 0 + (d.window (ix1 k) 0 : ℤ)).toNat = p.val at e0
      rw [hstart, hwin] at e0
      omega
    · intro e
      funext a
      have ha : a = 0 := Subsingleton.elim _ _
      subst ha
      apply Fin.ext
      show (d.start (ix1 k) idx 0 + (d.window (ix1 k) 0 : ℤ)).toNat = p.val
      rw [hstart, hwin]
      omega
  · next h =>
    constructor
    · intro e; cases e
    · intro e
      exfalso
      apply h
      intro a
      rw [hstart, hwin]
      have ha : a = 0 := Subsingleton.elim _ _
      subst ha
      show 0 ≤ _ ∧ _ < (N : ℤ)
      have := p.isLt
      omega

/-! ## The table as the program builds it -/

/-- The matches' row words and column words, as vectors over the matches. -/
def rowsW (a2 : IVec Pairs 32) : IVec S1000000 32 := fun i =>
  shapeCast S1000000 (extractStridedSlice S1000000x1 ![0, 0] a2 slices_S1000000x2_S1000000x1_0_0)
    shapeCasts_S1000000x1_S1000000 i
def colsW (a2 : IVec Pairs 32) : IVec S1000000 32 := fun i =>
  shapeCast S1000000 (extractStridedSlice S1000000x1 ![0, 1] a2 slices_S1000000x2_S1000000x1_0_1)
    shapeCasts_S1000000x1_S1000000 i

/-- The flat position word of each match: row · 2048 + column. -/
def flatW (a2 : IVec Pairs 32) : IVec S1000000 32 :=
  addi (muli (rowsW a2) (broadcastInDim S1000000 ![] bcast_S_S1000000 (constantI S_ 32 2048#32))) (colsW a2)

/-- The flat position clipped below at zero. -/
def clipW (a2 : IVec Pairs 32) : IVec S1000000 32 :=
  maxsi (broadcastInDim S1000000 ![] bcast_S_S1000000 (id (constantI S_ 32 0#32))) (flatW a2)

/-- A negative position counted from the end (none is negative after the clip). -/
def wrapW (a2 : IVec Pairs 32) : IVec S1000000 32 :=
  select (cmpi .slt (clipW a2) (broadcastInDim S1000000 ![] bcast_S_S1000000 (constantI S_ 32 0#32)))
    (addi (clipW a2) (broadcastInDim S1000000 ![] bcast_S_S1000000 (constantI S_ 32 4194304#32)))
    (clipW a2)

/-- The count words: one added at each match's flat position, from zero. -/
def tableW (a2 : IVec Pairs 32) : IVec S4194304 32 :=
  Host.scatter scatter_S4194304_S1000000x1_S1000000_n_0_0_1 IntOp.addi
    (broadcastInDim S4194304 ![] bcast_S_S4194304 (constantI S_ 32 0#32))
    (broadcastInDim S1000000x1 ![0] bcast_S1000000_S1000000x1_0 (wrapW a2))
    (broadcastInDim S1000000 ![] bcast_S_S1000000 (constantI S_ 32 1#32))

/-- What the region finds in `main_v18`: the count words as reals, laid out as a square. -/
theorem V_counts (c : Dev nD) :
    (V m c main_v18 : S2048x2048.Idx → EReal)
      = shapeCast S2048x2048 (sitofp (F := Ideal) .f32 (tableW (m ((c.tc : Thread nD τ).loc main_arg2))))
          shapeCasts_S4194304_S2048x2048 := by
  dsimp only [Gen.V, Gen.V0]
  simp only [Gen.hostOps0, Gen.hostOps0_1, Gen.hostOps0_2, List.flatten_cons, List.flatten_nil, List.append_nil,
    List.cons_append, List.nil_append]
  after_results_simp
  rfl

/-! ## The flat position word of a match in range -/

theorem rowsW_apply (a2 : IVec Pairs 32) (k : Fin 1000000) : rowsW a2 (ix1 k) = a2 (ix2 k (0 : Fin 2)) := by
  unfold rowsW
  rw [shapeCast_apply _ shapeCasts_S1000000x1_S1000000 (ix1 k) (ix2 k (0 : Fin 1)) (by
    rw [Shape.rowMajor_val_two, Shape.rowMajor_val_one]; show k.val * 1 + 0 = k.val; omega)]
  exact extractStridedSlice_apply _ a2 _ _ (ix2 k (0 : Fin 2)) fun a => by
    match a with
    | ⟨0, _⟩ => show k.val = 0 + k.val; omega
    | ⟨1, _⟩ => show (0 : ℕ) = 0 + 0; rfl

theorem colsW_apply (a2 : IVec Pairs 32) (k : Fin 1000000) : colsW a2 (ix1 k) = a2 (ix2 k (1 : Fin 2)) := by
  unfold colsW
  rw [shapeCast_apply _ shapeCasts_S1000000x1_S1000000 (ix1 k) (ix2 k (0 : Fin 1)) (by
    rw [Shape.rowMajor_val_two, Shape.rowMajor_val_one]; show k.val * 1 + 0 = k.val; omega)]
  exact extractStridedSlice_apply _ a2 _ _ (ix2 k (1 : Fin 2)) fun a => by
    match a with
    | ⟨0, _⟩ => show k.val = 0 + k.val; omega
    | ⟨1, _⟩ => show (1 : ℕ) = 1 + 0; rfl

/-- Two words below 2048: the first times 2048 plus the second, without wrapping. -/
theorem flat_word (x y : BitVec 32) (hx : x.toNat < 2048) (hy : y.toNat < 2048) :
    IntOp.addi (IntOp.muli x 2048#32) y = BitVec.ofNat 32 (x.toNat * 2048 + y.toNat) := by
  apply BitVec.eq_of_toNat_eq
  simp only [IntOp.addi, IntOp.muli, BitVec.toNat_add, BitVec.toNat_mul, BitVec.toNat_ofNat]
  omega

/-- A word below 2³¹ is not negative. -/
theorem slt_zero_false (f : BitVec 32) (hf : f.toNat < 2 ^ 31) : f.slt 0#32 = false := by
  unfold BitVec.slt
  rw [StableHlo.Predicate.toInt_eq_toNat_of_lt hf, BitVec.toInt_zero]
  exact decide_eq_false (by omega)

/-- On a list in range, match `k`'s position word is its row times 2048 plus its column: the product and the sum do not
    wrap, so the clip at zero and the wrap of negatives leave it. -/
theorem wrapW_apply (a2 : IVec Pairs 32) (hr : InRange a2) (k : Fin 1000000) :
    wrapW a2 (ix1 k) = BitVec.ofNat 32 ((rowOf a2 k).val * 2048 + (colOf a2 k).val) := by
  have h0 := hr (ix2 k (0 : Fin 2))
  have h1 := hr (ix2 k (1 : Fin 2))
  have hflat : flatW a2 (ix1 k) = BitVec.ofNat 32 ((a2 (ix2 k (0 : Fin 2))).toNat * 2048 + (a2 (ix2 k (1 : Fin 2))).toNat) := by
    show IntOp.addi (IntOp.muli (rowsW a2 (ix1 k)) 2048#32) (colsW a2 (ix1 k)) = _
    rw [rowsW_apply, colsW_apply]
    exact flat_word _ _ h0 h1
  have hlt : (flatW a2 (ix1 k)).toNat < 2 ^ 31 := by
    rw [hflat, BitVec.toNat_ofNat]; omega
  have hclip : clipW a2 (ix1 k) = flatW a2 (ix1 k) := by
    show IntOp.maxsi 0#32 (flatW a2 (ix1 k)) = _
    unfold IntOp.maxsi
    rw [slt_zero_false _ hlt]; rfl
  have hwrap : wrapW a2 (ix1 k) = clipW a2 (ix1 k) := by
    show Scalar.select (IntOp.cmpi .slt (clipW a2 (ix1 k)) 0#32) (IntOp.addi (clipW a2 (ix1 k)) 4194304#32)
      (clipW a2 (ix1 k)) = _
    have hc : IntOp.cmpi .slt (clipW a2 (ix1 k)) 0#32 = 0#1 := by
      rw [hclip]; unfold IntOp.cmpi; rw [slt_zero_false _ hlt]; rfl
    rw [hc, select_zero]
  rw [hwrap, hclip, hflat]
  show _ = BitVec.ofNat 32 ((a2 (ix2 k (0 : Fin 2))).toNat % 2048 * 2048 + (a2 (ix2 k (1 : Fin 2))).toNat % 2048)
  rw [Nat.mod_eq_of_lt h0, Nat.mod_eq_of_lt h1]

/-- A vector kept as a column reads, at row `p`, the vector at `p`. -/
theorem bcast_col_apply {α : Type} {n : ℕ} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-! ## The table's entries -/

/-- A multiplicity is at most the number of matches. -/
theorem mult_le (a2 : IVec Pairs 32) (r q : Fin 2048) : mult a2 r q ≤ 1000000 := by
  unfold mult
  exact (Finset.card_filter_le _ _).trans (by rw [Finset.card_univ, Fintype.card_fin])

/-- On a list in range, the count word at flat position `r · 2048 + q` is the multiplicity of cell `(r, q)`. -/
theorem tableW_apply (a2 : IVec Pairs 32) (hr : InRange a2) (r q : Fin 2048) :
    tableW a2 (ix1 ⟨r.val * 2048 + q.val, by have := r.isLt; have := q.isLt; omega⟩) = BitVec.ofNat 32 (mult a2 r q) := by
  unfold tableW
  rw [scatter_addi_one _ _ _ (broadcastInDim S1000000 ![] bcast_S_S1000000 (constantI S_ 32 1#32)) (fun _ => rfl)]
  show 0#32 + _ = _
  rw [BitVec.zero_add]
  refine congrArg (BitVec.ofNat 32) ?_
  show _ = (Finset.univ.filter fun k : Fin 1000000 => rowOf a2 k = r ∧ colOf a2 k = q).card
  refine (Finset.card_equiv idxEquiv1 fun k => ?_).symm
  simp only [Finset.mem_filter, Finset.mem_univ, true_and]
  show _ ↔ scatter_S4194304_S1000000x1_S1000000_n_0_0_1.resultIdx? (ix1 k) _ = some (ix1 _)
  rw [resultIdx?_eq_some_iff _ rfl rfl rfl, bcast_col_apply, wrapW_apply a2 hr,
    StableHlo.Predicate.toInt_ofNat_small _ (by have := (rowOf a2 k).isLt; have := (colOf a2 k).isLt; omega)]
  have h0 := (rowOf a2 k).isLt
  have h1 := (colOf a2 k).isLt
  have h2 := r.isLt
  have h3 := q.isLt
  constructor
  · rintro ⟨rfl, rfl⟩; rfl
  · intro e
    have e' : (rowOf a2 k).val * 2048 + (colOf a2 k).val = r.val * 2048 + q.val := by exact_mod_cast e
    exact ⟨Fin.ext (by omega), Fin.ext (by omega)⟩

end Multiplicity

open Multiplicity

/-- On a match list in range, the region finds the multiplicity table in `main_v18`. -/
theorem counts_apply (c : Dev nD) (hr : InRange (m ((c.tc : Thread nD τ).loc main_arg2))) (r q : Fin 2048) :
    (V m c main_v18 : S2048x2048.Idx → EReal) (ix2 r q)
      = ((mult (m ((c.tc : Thread nD τ).loc main_arg2)) r q : ℕ) : EReal) := by
  refine (congrFun (V_counts m c) (ix2 r q)).trans ?_
  rw [shapeCast_apply _ shapeCasts_S4194304_S2048x2048 (ix2 r q)
    (ix1 ⟨r.val * 2048 + q.val, by have := r.isLt; have := q.isLt; omega⟩) (by
      rw [Shape.rowMajor_val_one, Shape.rowMajor_val_two]; rfl)]
  rw [sitofp_apply, tableW_apply _ hr]
  show (((BitVec.ofNat 32 (mult (m ((c.tc : Thread nD τ).loc main_arg2)) r q)).toInt : ℝ) : EReal) = _
  rw [StableHlo.Predicate.toInt_ofNat_small _ (by have := mult_le (m ((c.tc : Thread nD τ).loc main_arg2)) r q; omega),
    Int.cast_natCast]
  rfl

end Cert.KernelIdeal.Matched

end
-- ==== Proof.TileSum.lean ====
/-
  Sums over an axis cut into equal blocks: an axis of extent a · b is a blocks of b consecutive entries, and summing
  block by block, entry by entry, is summing over the axis.
-/
import Mathlib.Algebra.BigOperators.Fin
import Mathlib.Logic.Equiv.Fin.Basic

namespace Cert.Matched

open scoped BigOperators

/-- Entry j of block i lies on the axis. -/
theorem blockEntry_lt {a b : ℕ} (i : Fin a) (j : Fin b) : i.val * b + j.val < a * b :=
  Nat.lt_of_lt_of_le (Nat.add_lt_add_left j.isLt _)
    (by rw [← Nat.succ_mul]; exact Nat.mul_le_mul_right _ i.isLt)

/-- Block by block, entry by entry, is the whole axis. -/
theorem sum_blocks {M : Type*} [AddCommMonoid M] {a b n : ℕ} (h : a * b = n) (f : Fin n → M) :
    ∑ i : Fin a, ∑ j : Fin b, f ⟨i.val * b + j.val, h ▸ blockEntry_lt i j⟩ = ∑ k : Fin n, f k := by
  subst h
  rw [← (finProdFinEquiv (m := a) (n := b)).sum_comp f, Fintype.sum_prod_type]
  refine Finset.sum_congr rfl fun i _ => Finset.sum_congr rfl fun j _ => ?_
  congr 1
  apply Fin.ext
  simp only [finProdFinEquiv_apply_val]
  rw [Nat.mul_comm, Nat.add_comm]

end Cert.Matched
-- ==== Proof.KernelValue.lean ====
/-
  The kernel's result. Each grid point's tile value is the sum, over the tile's 128 × 512 cells, of the cell's loss
  times its multiplicity; the 64 tiles are the 16 × 4 blocks of the [2048, 2048] cell plane, each met once, so the
  two halves' totals add up to the sum over all cells; the host operations after the region divide that by the
  number of matches.
-/
import proofs.«400624_j80985903334130_2_alg».proof.Proof.CoreTotals
import proofs.«400624_j80985903334130_2_alg».proof.Proof.Epilogue
import proofs.«400624_j80985903334130_2_alg».proof.Proof.Multiplicity
import proofs.«400624_j80985903334130_2_alg».proof.Proof.TileSum

noncomputable section

namespace Cert.KernelIdeal.Matched

open Cert.KernelIdeal Cert.KernelIdeal.Gen Idealize.ShloMosaic Idealize.ShloMosaic.TcCoe Idealize.SL.Sem
open Idealize.ShloMosaic.ValueIdx Cert.Matched
open scoped BigOperators

variable (m : (ℓ : Loc nD τ sig) → Buf (Elt Ideal) ℓ)

/-- A tile whose entries are read off two arrays and a table at the cells (R r, C q) has the weighted loss of those
    cells: the tile's loss entry by entry is the cell's. -/
theorem tileLoss_of_reads (x0 x1 : FVec Ideal S8x128x512 .f32) (x2 : FVec Ideal S128x512 .f32)
    (A0 A1 : FVec Ideal Arr .f32) (cnt : Fin 2048 → Fin 2048 → EReal) (R : Fin 128 → Fin 2048) (C : Fin 512 → Fin 2048)
    (h0 : ∀ (b : Fin 8) (r : Fin 128) (q : Fin 512), x0 (ix3 b r q) = A0 (ix3 b (R r) (C q)))
    (h1 : ∀ (b : Fin 8) (r : Fin 128) (q : Fin 512), x1 (ix3 b r q) = A1 (ix3 b (R r) (C q)))
    (h2 : ∀ (r : Fin 128) (q : Fin 512), x2 (ix2 r q) = cnt (R r) (C q)) :
    tileLoss x0 x1 x2 = ∑ r : Fin 128, ∑ q : Fin 512, cell A0 A1 (R r) (C q) * cnt (R r) (C q) := by
  unfold tileLoss cell
  simp only [h0, h1, h2]

/-- The tile of point t, cell by cell: the block reads put each entry at its cell, the table entry is the cell's
    multiplicity. -/
theorem tileAt_eq (c : Dev nD) (hr : InRange (m ((c.tc : Thread nD τ).loc main_arg2))) (t : Fin cfg0.N) :
    tileAt m c t = ∑ r : Fin 128, ∑ q : Fin 512,
      cell (m ((c.tc : Thread nD τ).loc main_arg0)) (m ((c.tc : Thread nD τ).loc main_arg1)) (rowAt t r) (colAt t q)
        * ((mult (m ((c.tc : Thread nD τ).loc main_arg2)) (rowAt t r) (colAt t q) : ℕ) : EReal) :=
  tileLoss_of_reads (blk0 m c t) (blk1 m c t) (blk2 m c t)
    (m ((c.tc : Thread nD τ).loc main_arg0)) (m ((c.tc : Thread nD τ).loc main_arg1))
    (fun R C => ((mult (m ((c.tc : Thread nD τ).loc main_arg2)) R C : ℕ) : EReal)) (rowAt t) (colAt t)
    (fun b r q => (blk0_apply m c t b r q).trans (congrFun (V_main_arg0 m c) _))
    (fun b r q => (blk1_apply m c t b r q).trans (congrFun (V_main_arg1 m c) _))
    (fun r q => (blk2_apply m c t r q).trans (counts_apply m c hr (rowAt t r) (colAt t q)))

/-- The tiles cover the cell plane once: summing a function of the cell over (half, point, tile row, tile column)
    is summing it over (row, column). Rows: point t's tile starts at row (t / 4) · 128; columns: at (t % 4) · 512;
    and t = 4 u + v runs over the 16 × 4 blocks. -/
theorem tiles_cover (g : Fin 2048 → Fin 2048 → EReal) :
    ∑ b : Fin 2, ∑ s : Fin 32, ∑ r : Fin 128, ∑ q : Fin 512, g (rowAt (pt b s) r) (colAt (pt b s) q)
      = ∑ R : Fin 2048, ∑ C : Fin 2048, g R C := by
  -- the plane cut into 16 row blocks of 128 and 4 column blocks of 512
  have hplane : ∑ R : Fin 2048, ∑ C : Fin 2048, g R C
      = ∑ u : Fin 16, ∑ v : Fin 4, ∑ r : Fin 128, ∑ q : Fin 512,
          g ⟨u.val * 128 + r.val, blockEntry_lt u r⟩ ⟨v.val * 512 + q.val, blockEntry_lt v q⟩ := by
    rw [← sum_blocks (M := EReal) (a := 16) (b := 128) (n := 2048) rfl (fun R => ∑ C : Fin 2048, g R C)]
    refine Finset.sum_congr rfl fun u _ => ?_
    calc ∑ r : Fin 128, ∑ C : Fin 2048, g ⟨u.val * 128 + r.val, blockEntry_lt u r⟩ C
        = ∑ r : Fin 128, ∑ v : Fin 4, ∑ q : Fin 512,
            g ⟨u.val * 128 + r.val, blockEntry_lt u r⟩ ⟨v.val * 512 + q.val, blockEntry_lt v q⟩ :=
          Finset.sum_congr rfl fun r _ => (sum_blocks (M := EReal) (a := 4) (b := 512) (n := 2048) rfl
            (fun C => g ⟨u.val * 128 + r.val, blockEntry_lt u r⟩ C)).symm
      _ = ∑ v : Fin 4, ∑ r : Fin 128, ∑ q : Fin 512,
            g ⟨u.val * 128 + r.val, blockEntry_lt u r⟩ ⟨v.val * 512 + q.val, blockEntry_lt v q⟩ :=
          Finset.sum_comm
  have h64 : ∀ k : Fin 64, k.val < cfg0.N := fun k => lt_of_lt_of_eq k.isLt N_eq.symm
  -- a point's tile sum as a function of the point's number
  let F : Fin 64 → EReal := fun k => ∑ r : Fin 128, ∑ q : Fin 512, g (rowAt ⟨k.val, h64 k⟩ r) (colAt ⟨k.val, h64 k⟩ q)
  calc ∑ b : Fin 2, ∑ s : Fin 32, ∑ r : Fin 128, ∑ q : Fin 512, g (rowAt (pt b s) r) (colAt (pt b s) q)
      = ∑ b : Fin 2, ∑ s : Fin 32, F ⟨b.val * 32 + s.val, blockEntry_lt b s⟩ := by
        refine Finset.sum_congr rfl fun b _ => Finset.sum_congr rfl fun s _ => ?_
        have hpt : pt b s = ⟨b.val * 32 + s.val, h64 ⟨b.val * 32 + s.val, blockEntry_lt b s⟩⟩ :=
          Fin.ext (by show 32 * b.val + s.val = b.val * 32 + s.val; omega)
        rw [hpt]
    _ = ∑ u : Fin 16, ∑ v : Fin 4, F ⟨u.val * 4 + v.val, blockEntry_lt u v⟩ := by
        rw [sum_blocks (M := EReal) (a := 2) (b := 32) (n := 64) rfl F,
          sum_blocks (M := EReal) (a := 16) (b := 4) (n := 64) rfl F]
    _ = ∑ u : Fin 16, ∑ v : Fin 4, ∑ r : Fin 128, ∑ q : Fin 512,
          g ⟨u.val * 128 + r.val, blockEntry_lt u r⟩ ⟨v.val * 512 + q.val, blockEntry_lt v q⟩ := by
        refine Finset.sum_congr rfl fun u _ => Finset.sum_congr rfl fun v _ => ?_
        refine Finset.sum_congr rfl fun r _ => Finset.sum_congr rfl fun q _ => ?_
        have hrow : rowAt ⟨u.val * 4 + v.val, h64 ⟨u.val * 4 + v.val, blockEntry_lt u v⟩⟩ r
            = ⟨u.val * 128 + r.val, blockEntry_lt u r⟩ :=
          Fin.ext (by show (u.val * 4 + v.val) / 4 * 128 + r.val = u.val * 128 + r.val; have := v.isLt; omega)
        have hcol : colAt ⟨u.val * 4 + v.val, h64 ⟨u.val * 4 + v.val, blockEntry_lt u v⟩⟩ q
            = ⟨v.val * 512 + q.val, blockEntry_lt v q⟩ :=
          Fin.ext (by show (u.val * 4 + v.val) % 4 * 512 + q.val = v.val * 512 + q.val; have := v.isLt; omega)
        show g (rowAt ⟨u.val * 4 + v.val, _⟩ r) (colAt ⟨u.val * 4 + v.val, _⟩ q) = _
        rw [hrow, hcol]
    _ = ∑ R : Fin 2048, ∑ C : Fin 2048, g R C := hplane.symm

/-- The two halves' totals are the weighted sum over all cells. -/
theorem kernel_total (c : Dev nD) (hr : InRange (m ((c.tc : Thread nD τ).loc main_arg2))) :
    outArr m c (ix3 0 0 0) + outArr m c (ix3 1 0 0)
      = weightedSum (m ((c.tc : Thread nD τ).loc main_arg0)) (m ((c.tc : Thread nD τ).loc main_arg1))
          (m ((c.tc : Thread nD τ).loc main_arg2)) := by
  rw [final_block m c 0 0, final_block m c 1 0,
    ← Fin.sum_univ_two (fun b : Fin 2 => ∑ s : Fin 32, tileAt m c (pt b s))]
  simp only [tileAt_eq m c hr]
  exact tiles_cover (fun R C => cell (m ((c.tc : Thread nD τ).loc main_arg0)) (m ((c.tc : Thread nD τ).loc main_arg1)) R C
    * ((mult (m ((c.tc : Thread nD τ).loc main_arg2)) R C : ℕ) : EReal))

/-- The kernel's run on a match list in range: the result is the mean of the weighted sum, the arguments are
    unchanged. -/
theorem kernel_run (ρ : Dev nD → PrngReg) (hr : ∀ c : Dev nD, InRange (m ((c.tc : Thread nD τ).loc main_arg2))) :
    θ_run defs (onTc (τ := τ) (main (F := Ideal))) ⟨m, fun _ => 0, ρ⟩ (fun r => ∀ c : Dev nD,
      r.2.mem ((c.tc : Thread nD τ).loc main_v25)
          = mean (weightedSum (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v25 (Pipeline.mem_restRefs_of main_v25 (by decide) (by decide))).trans
        ((tail_value m c).trans (congrArg mean (kernel_total m c (hr c)))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Matched

end
-- ==== Proof.lean ====
/-
  The certificate of a matched-entries binary cross-entropy: the kernel's dense pass over a multiplicity table
  against the reference's gather over the match list.

  Both programs compute, at the ideal instance, mean = (∑ over matches k and batch entries b of
  loss(pred[b, row k, col k], gt[b, row k, col k])) / 10^6 with loss(p, g) = -(g · max(log p, -100) +
  (1 - g) · max(log(1 + (-p)), -100)). The reference gathers the matched entries and sums them. The kernel first
  counts, for every cell (r, c) of the [2048, 2048] plane, how many matches name it, then streams both arrays once in
  64 tiles of 128 × 512 cells, summing over the batch axis, weighting each cell by its count, and accumulating per
  half of the grid; the two halves are added and divided on the host.

  The two agree when every entry of the match list indexes the arrays' axes, 0 ≤ entry < 2048, which the
  precondition states (outside that range the reference's gather clamps an index to its axis while the kernel's flat
  index r · 2048 + c names another cell). In range, the sum over matches is the sum over cells weighted by
  multiplicity: a regrouping of a finite sum of extended reals by the cell each match names, and n equal summands
  x add up to x · n for every extended real x. No finiteness of the float inputs is used.

  Modules: Loss (the quantities and the regrouping), IndexRange (the precondition read as a range), RefMatched (the
  reference's value), Multiplicity (the kernel's count table), TileLoss (the body's arithmetic), Tiles, CoreTotals
  (the accumulation over grid points), Epilogue (block reads, the host operations after the region), TileSum and
  KernelValue (the tiles cover the plane; the kernel's value).
-/
import proofs.«400624_j80985903334130_2_alg».proof.Defs
import proofs.«400624_j80985903334130_2_alg».proof.Proof.Gen.Kernel
import proofs.«400624_j80985903334130_2_alg».proof.Proof.Gen.Kernel.Frame
import proofs.«400624_j80985903334130_2_alg».proof.Proof.Gen.KernelIdeal
import proofs.«400624_j80985903334130_2_alg».proof.Proof.Gen.KernelIdeal.Frame
import proofs.«400624_j80985903334130_2_alg».proof.Proof.Gen.ReferenceIdeal
import proofs.«400624_j80985903334130_2_alg».proof.Proof.Gen.Pre_finite_inputs
import proofs.«400624_j80985903334130_2_alg».proof.Proof.Gen.ReferenceIdeal.Run
import proofs.«400624_j80985903334130_2_alg».proof.Proof.Gen.ReferenceIdeal.Read
import proofs.«400624_j80985903334130_2_alg».proof.Proof.IndexRange
import proofs.«400624_j80985903334130_2_alg».proof.Proof.RefMatched
import proofs.«400624_j80985903334130_2_alg».proof.Proof.KernelValue
import Idealize.ShloMosaic.Adequacy
import Idealize.ShloMosaic.Init

noncomputable section

namespace Cert.Proof

open Idealize.ShloMosaic Idealize.SL.Sem Cert.Matched

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, with the match list in range, the kernel ends at the mean of the
    sum over cells weighted by multiplicity and the reference at the mean of the sum over matches: one value. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg2)) :=
    fun c => inRange_of_pre _ _ _ (hpre c)
  refine ⟨_, Cert.KernelIdeal.Matched.kernel_run m ρ hr, ?_⟩
  refine (θ_run Cert.ReferenceIdeal.defs _ _).mono (fun _ h c => ⟨(h c).1.trans ?_, (h c).2⟩)
    (Cert.ReferenceIdeal.Value.run (F := Ideal) m' ρ')
  have hr' : InRange (m' ((c.tc : Thread Cert.ReferenceIdeal.nD Cert.ReferenceIdeal.τ).loc Cert.ReferenceIdeal.main_arg2)) := by
    rw [(hagree c).2.2]; exact hr c
  rw [show Cert.ReferenceIdeal.Value.res_main_v46 m' c = Cert.ReferenceIdeal.Value.res_out0 m' c from rfl,
    Cert.ReferenceIdeal.Matched.ref_value m' c hr', (hagree c).1, (hagree c).2.1, (hagree c).2.2,
    matchedSum_eq_weightedSum]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
